-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  main_v3
-- ==== Kernel.lean ====
abbrev S8192x64 : Shape := ⟨2, ![8192, 64]⟩
abbrev S1x1 : Shape := ⟨2, ![1, 1]⟩
abbrev S512x64 : Shape := ⟨2, ![512, 64]⟩
abbrev S512 : Shape := ⟨1, ![512]⟩
abbrev S512x1 : Shape := ⟨2, ![512, 1]⟩
abbrev S64x512 : Shape := ⟨2, ![64, 512]⟩
abbrev S512x512 : Shape := ⟨2, ![512, 512]⟩
abbrev S1x512 : Shape := ⟨2, ![1, 512]⟩
abbrev S1x512x512 : Shape := ⟨3, ![1, 512, 512]⟩
abbrev S1 : Shape := ⟨1, ![1]⟩
abbrev S1x1x1 : Shape := ⟨3, ![1, 1, 1]⟩
abbrev S_ : Shape := ⟨0, ![]⟩

abbrev nBuf : Space → Nat
  | .hbm => 3
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S1x1, .f32⟩
  | .hbm, ⟨2, _⟩ => ⟨S_, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S1x1, .f32⟩
  | .local _ .vmem, ⟨5, _⟩ => ⟨S1x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![16, 16], ![false, false]⟩

def k0_cond3 (i : grid0.Coords) : BitVec 1 :=
  let arg0 : BitVec 32 := BitVec.ofNat 32 (i 0).val
  let c15_i32 : BitVec 32 := 15#32
  let v8 : BitVec 1 := Scalar.cmpi .eq arg0 c15_i32
  let arg1 : BitVec 32 := BitVec.ofNat 32 (i 1).val
  let c15_i32_3 : BitVec 32 := 15#32
  let v9 : BitVec 1 := Scalar.cmpi .eq arg1 c15_i32_3
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x64_S512x64_0_0 : ∀ a, (![0, 0] : Fin 2 → Nat) a + S512x64.size a ≤ S512x64.size a
  h_S512x64 : 0 < S512x64.numel
  reduces_S512x64_S512 : S512x64.Reduces [1] S512
  shapeCasts_S512_S512x1 : S512.ShapeCasts S512x1
  bitsLt_bf16_f32 : FTy.bits .bf16 < FTy.bits .f32
  transposes_S512x64_p1_0_S64x512 : S512x64.Transposes [1, 0] S64x512
  transposes_S512x1_p1_0_S1x512 : S512x1.Transposes [1, 0] S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  dot_S512x64_S64x512_S512x512_1_0_0_1_n_n_wf : DotDims.WF S512x64 S64x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S8192x64.size a
  hwx0_0 : ∀ i : grid0.Coords, EltTy.bits .f32 = 32 ∨ (Rect.block (s := S8192x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S8192x64.size a
  hwx0_1 : ∀ i : grid0.Coords, EltTy.bits .f32 = 32 ∨ (Rect.block (s := S8192x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S64x8192 : Shape := ⟨2, ![64, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 47
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S_, .f32⟩
  | .hbm, ⟨3, _⟩ => ⟨S8192, .f32⟩
  | .hbm, ⟨4, _⟩ => ⟨S64x8192, .f32⟩
  | .hbm, ⟨5, _⟩ => ⟨S8192x8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .i1⟩
  | .hbm, ⟨16, _⟩ => ⟨S8192x8192, .i1⟩
  | .hbm, ⟨17, _⟩ => ⟨S8192x8192, .i32⟩
  | .hbm, ⟨18, _⟩ => ⟨S_, .i32⟩
  | .hbm, ⟨19, _⟩ => ⟨S8192x8192, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S_, .i1⟩
  | .hbm, ⟨24, _⟩ => ⟨S8192x8192, .i1⟩
  | .hbm, ⟨25, _⟩ => ⟨S8192x8192, .i1⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_0 : Ref sig .tc := ⟨.hbm, 23, rfl⟩
abbrev main_call0_v5 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_call2_v0 : Ref sig .tc := ⟨.hbm, 40, rfl⟩
abbrev main_call2_v1 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_cst_6 : Ref sig .tc := ⟨.hbm, 45, rfl⟩
abbrev main_v24 : Ref sig .tc := ⟨.hbm, 46, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  transposes_S8192x64_S64x8192_1_0 : S8192x64.Transposes [1, 0] S64x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.K.Acc.lean ====
/-
  The accumulator of the kernel, as a pure function of the input tiles, at every float instance.

  The kernel keeps one number in a 1 × 1 scratch cell across its 16 × 16 grid (row-major, 256 points).  At the first
  point it stores zero there and then, like at every later point whose column tile is not left of its row tile, reads
  the cell, adds the point's masked tile sum (the generated payload `k0_pay4` of the two input tiles and the two grid
  coordinates) and stores the sum back (`k0_pay2`); at the points below the diagonal the cell is left alone.  At
  the last point it divides the cell by the pair count and stores the quotient into the 1 × 1 output block (`k0_pay3`).

  `accAt B0 B1 n` is the cell after point `n`, for any two families of tiles `B0 n`, `B1 n` (what the two input
  windows hold at point `n`); `outFinal` is the output block the last point writes back.
-/
import proofs.«150324_j206158430576_1_alg».proof.Proof.Gen.Kernel.Skeleton

noncomputable section

namespace Cert.Kernel.Hand

open Cert.Kernel Cert.Kernel.Gen Idealize.ShloMosaic

variable {F : FTy → Type} [FloatOps F]

/-- The scratch cell after grid point `n`. -/
def accAt (B0 B1 : ℕ → Vec F S512x64 .f32) : ℕ → Vec F S1x1 .f32
  | 0 => k0_pay2 (k0_pay1 (F := F)) (k0_pay4 (BitVec.ofNat 32 0) (BitVec.ofNat 32 0) (B0 0) (B1 0))
  | n + 1 =>
    if (n + 1) / 16 % 16 ≤ (n + 1) % 16 then
      k0_pay2 (accAt B0 B1 n) (k0_pay4 (BitVec.ofNat 32 ((n + 1) / 16 % 16)) (BitVec.ofNat 32 ((n + 1) % 16)) (B0 (n + 1)) (B1 (n + 1)))
    else accAt B0 B1 n

/-- The output block the last grid point writes back: the cell over the pair count. -/
def outFinal (B0 B1 : ℕ → Vec F S512x64 .f32) : Vec F S1x1 .f32 := k0_pay3 (accAt B0 B1 255)

end Cert.Kernel.Hand

end
-- ==== Proof.K.Setup.lean ====
/-
  What the runs of the kernel's body are stated over, at every float instance: the arrays as the region finds
  them, each input window's block at a grid point, the three conditions of the body decided over the 16 × 16 grid,
  where the output window is idle, and the staging and scratch memrefs.

  The grid is row-major: point t has tile row t / 16 and tile column t % 16.  The body's first condition (both
  coordinates zero) holds at point 0 only; the second (column tile not left of row tile) at the points on or above
  the diagonal; the third (both coordinates fifteen) at point 255 only, the one point where the body stores into the
  output block and the pipeline writes it back.
-/
import proofs.«150324_j206158430576_1_alg».proof.Proof.Gen.Kernel.Launch
import proofs.«150324_j206158430576_1_alg».proof.Proof.Gen.Kernel.Skeleton
import proofs.«150324_j206158430576_1_alg».proof.Proof.Gen.Kernel.Points
import proofs.«150324_j206158430576_1_alg».proof.Proof.K.Acc
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and the windows' blocks -/

/-- Core `c`'s buffer contents when the region is entered: no host operation runs before it, so the launch contents. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for input window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's conditions, decided over the grid -/

/-- Both grid coordinates are zero, as the body computes it. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond1 : ∀ t : Fin cfg0.N, cond1 (grid0.coords t) ↔ t.val = 0 :=
  (by decide +kernel : ∀ t : Fin grid0.N, cond1 (grid0.coords t) ↔ t.val = 0)

/-- The column tile is not left of the row tile, as the body computes it (a signed comparison of the coordinates). -/
abbrev cond2 (i : grid0.Coords) : Prop :=
  (Scalar.cmpi .ne (Scalar.extui (Scalar.cmpi .sge (BitVec.ofNat 32 (i 1).val) (BitVec.ofNat 32 (i 0).val))) 0#32) = 1#1
/-- It holds where t / 16 ≤ t % 16. -/
theorem hcond2 : ∀ t : Fin cfg0.N, cond2 (grid0.coords t) ↔ t.val / 16 % 16 ≤ t.val % 16 :=
  (by decide +kernel : ∀ t : Fin grid0.N, cond2 (grid0.coords t) ↔ t.val / 16 % 16 ≤ t.val % 16)

/-- Both grid coordinates are fifteen. -/
abbrev cond3 (i : grid0.Coords) : Prop := k0_cond3 i = 1#1
/-- It holds at the last point only. -/
theorem hcond3 : ∀ t : Fin cfg0.N, cond3 (grid0.coords t) ↔ t.val = 255 :=
  (by decide +kernel : ∀ t : Fin grid0.N, cond3 (grid0.coords t) ↔ t.val = 255)

/-- The grid coordinates of point `t`: tile row t / 16, tile column t % 16. -/
theorem coords_val : ∀ t : Fin cfg0.N, ((grid0.coords t) 0).val = t.val / 16 % 16 ∧ ((grid0.coords t) 1).val = t.val % 16 :=
  (by decide +kernel : ∀ t : Fin grid0.N, ((grid0.coords t) 0).val = t.val / 16 % 16 ∧ ((grid0.coords t) 1).val = t.val % 16)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the body stores nothing into the output block and the pipeline does not write it back. -/
theorem idleAt0_2 : ∀ t : Fin cfg0.N, ¬cond3 (grid0.coords t) → cfg0.idle 2 (grid0.coords t) = true := by decide +kernel
theorem noFlush0_2 : ∀ t : Fin cfg0.N, ¬cond3 (grid0.coords t) → (cfg0.win 2).flush t = false := by decide +kernel
/-- At the last point the output block is live. -/
theorem liveAt0_2 : ∀ t : Fin cfg0.N, cond3 (grid0.coords t) → cfg0.idle 2 (grid0.coords t) = false := by decide +kernel

/-! ## The memrefs the body is called with -/

abbrev ms0_0 (t : Fin cfg0.N) : Memref sig .tc .vmem S512x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch cell: a whole scoped buffer of the kernel's own, passed beside the windows. -/
abbrev scM : Memref sig .tc .vmem S1x1 .f32 := Memref.whole cc0_scratch0

/-- The class invariant with the scratch cell as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The tiles the accumulator's recursion reads at step `n`: the two input windows' blocks at point n (mod 256). -/
def tile0 (c : Dev nD) (n : ℕ) : Vec F S512x64 .f32 := iblk m c 0 ⟨n % 256, lt_of_lt_of_eq (Nat.mod_lt _ (by decide)) N_0.symm⟩
def tile1 (c : Dev nD) (n : ℕ) : Vec F S512x64 .f32 := iblk m c 1 ⟨n % 256, lt_of_lt_of_eq (Nat.mod_lt _ (by decide)) N_0.symm⟩

end Cert.Kernel.Hand

end
-- ==== Proof.K.Runs.lean ====
/-
  The kernel's body run once per case of its three conditions, on any whole staging memrefs, at every float instance.

  Four cases occur on the grid.  At the first point the body zeroes the scratch cell, reads it back, adds the tile sum
  and stores the cell.  On or above the diagonal elsewhere it reads the cell as the point before left it, adds the tile
  sum and stores it.  Below the diagonal it touches nothing.  At the last point it updates the cell as above, reads
  it once more, divides by the pair count and stores the quotient into the output block.  In each case the input
  tiles are handed back as found; an output block the case does not store into is handed back untouched; what the
  stores leave in the cell and in the output block is recorded as the list of stored pieces, last store first.
-/
import proofs.«150324_j206158430576_1_alg».proof.Proof.K.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The first point: both coordinates zero, so on the diagonal, and not the last point. -/
noncomputable def kernelRun_A (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole) (hc1 : cond1 i) (hc2 : cond2 i) (hc3 : ¬cond3 i)
    (x0 x1 : Vec F S512x64 .f32) :
    { LS : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__kernel i arg2 harg2 arg3 harg3 arg4 harg4 arg5 harg5) K } := by
  refine ⟨?_, fun xi2 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- On or above the diagonal, neither the first nor the last point: the cell holds `xs`, what the point before left. -/
noncomputable def kernelRun_B (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole) (hc1 : ¬cond1 i) (hc2 : cond2 i) (hc3 : ¬cond3 i)
    (x0 x1 : Vec F S512x64 .f32) (xs : Vec F S1x1 .f32) :
    { LS : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__kernel i arg2 harg2 arg3 harg3 arg4 harg4 arg5 harg5) K } := by
  refine ⟨?_, fun xi2 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- Below the diagonal: the body loads and stores nothing; everything is handed back as found. -/
theorem kernelRun_C (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole) (hc1 : ¬cond1 i) (hc2 : ¬cond2 i) (hc3 : ¬cond3 i)
    (x0 x1 : Vec F S512x64 .f32) (xi2 xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs
        ∗ (iprop(owns (c : Thread nD τ) arg2 fullShare x0 ∗ owns (c : Thread nD τ) arg3 fullShare x1 ∗ owns (c : Thread nD τ) arg4 fullShare xi2 ∗ owns (c : Thread nD τ) arg5 fullShare xs) -∗ K ⟨⟩))
      ⊢ wp frame (wpE (defs₀ (F := F)) Variants.none c none) E (cc0__kernel i arg2 harg2 arg3 harg3 arg4 harg4 arg5 harg5) K := by
  simp only [cc0__kernel_eq_skeleton]; unfold cc0__kernel_skel
  iintro ⟨H0, H1, H2, HS, Hk⟩
  sl_exec (disch := first | exact hc1 | exact hc2 | exact hc3)
  sl_step
  iapply Hk
  isplitl [H0]; · iexact H0
  isplitl [H1]; · iexact H1
  isplitl [H2]; · iexact H2
  iexact HS

set_option maxHeartbeats 1000000 in
/-- The last point: on the diagonal; the cell is updated, read back, divided and stored into the output block. -/
noncomputable def kernelRun_D (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole) (hc1 : ¬cond1 i) (hc2 : cond2 i) (hc3 : cond3 i)
    (x0 x1 : Vec F S512x64 .f32) (xs : Vec F S1x1 .f32) :
    Σ' (L2 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__kernel i arg2 harg2 arg3 harg3 arg4 harg4 arg5 harg5) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Hand

end
-- ==== Proof.K.Data.lean ====
/-
  The proof data of the kernel's one pipeline and its body obligation, at every float instance.

  What each case's stores leave: the first point leaves the cell at zero plus the tile sum, a later point on or above
  the diagonal at the cell's earlier contents plus the tile sum, a point below the diagonal leaves it alone, and the
  last point also leaves the cell over the pair count in the output block.  Read along the grid these are the
  accumulator's recursion (`accAt`), so the region's invariant before point n + 1 is: the scratch cell holds the
  accumulator after point n.  The two input windows hold their blocks at every point; the output window's block is
  consulted at the last point only, where it holds the final quotient.  The two input windows read ONE array, which
  they hold by halves.
-/
import proofs.«150324_j206158430576_1_alg».proof.Proof.K.Runs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole-block access, however spelt. -/
theorem hz2 : (![0, 0] : Fin 2 → Nat) = fun _ => 0 := by funext a; match a with | ⟨0, _⟩ => rfl | ⟨1, _⟩ => rfl

/-! ## What each case leaves -/

/-- The first point's two stores into the cell cover it. -/
theorem scover_A (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole) (hc1 : cond1 i) (hc2 : cond2 i) (hc3 : ¬cond3 i) (x0 x1 : Vec F S512x64 .f32) (y : S1x1.Idx) :
    ∃ pc ∈ (kernelRun_A c i arg2 harg2 arg3 harg3 arg4 harg4 arg5 harg5 hc1 hc2 hc3 x0 x1).1, y ∈ pc.1.set :=
  View.cover_of_tiledL (kernelRun_A c i arg2 harg2 arg3 harg3 arg4 harg4 arg5 harg5 hc1 hc2 hc3 x0 x1).1 S1x1.size (by sl_kernel_rfl) y

/-- The first point leaves the cell at zero plus the tile sum. -/
theorem canon_A (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole) (hc1 : cond1 i) (hc2 : cond2 i) (hc3 : ¬cond3 i) (x0 x1 : Vec F S512x64 .f32) :
    View.canon (kernelRun_A c i arg2 harg2 arg3 harg3 arg4 harg4 arg5 harg5 hc1 hc2 hc3 x0 x1).1 = k0_pay2 (k0_pay1 (F := F)) (k0_pay4 (BitVec.ofNat 32 (i 0).val) (BitVec.ofNat 32 (i 1).val) x0 x1) := by
  unfold kernelRun_A; dsimp only; sl_unfold_words
  rw [View.canon_cons_unit_zero (S := S1x1) hz2]
  simp only [View.readAt_eq_ld, harg2.read_unread, harg3.read_unread, harg5.read_unread, View.readCov_unit_zero (S := S1x1) _ hz2, View.ld_unit_zero (S := S1x1) hz2, View.ld_unit_zero (S := S512x64) hz2]

theorem scover_B (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole) (hc1 : ¬cond1 i) (hc2 : cond2 i) (hc3 : ¬cond3 i) (x0 x1 : Vec F S512x64 .f32) (xs : Vec F S1x1 .f32) (y : S1x1.Idx) :
    ∃ pc ∈ (kernelRun_B c i arg2 harg2 arg3 harg3 arg4 harg4 arg5 harg5 hc1 hc2 hc3 x0 x1 xs).1, y ∈ pc.1.set :=
  View.cover_of_tiledL (kernelRun_B c i arg2 harg2 arg3 harg3 arg4 harg4 arg5 harg5 hc1 hc2 hc3 x0 x1 xs).1 S1x1.size (by sl_kernel_rfl) y

/-- A later point on or above the diagonal leaves the cell at its earlier contents plus the tile sum. -/
theorem canon_B (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole) (hc1 : ¬cond1 i) (hc2 : cond2 i) (hc3 : ¬cond3 i) (x0 x1 : Vec F S512x64 .f32) (xs : Vec F S1x1 .f32) :
    View.canon (kernelRun_B c i arg2 harg2 arg3 harg3 arg4 harg4 arg5 harg5 hc1 hc2 hc3 x0 x1 xs).1 = k0_pay2 xs (k0_pay4 (BitVec.ofNat 32 (i 0).val) (BitVec.ofNat 32 (i 1).val) x0 x1) := by
  unfold kernelRun_B; dsimp only; sl_unfold_words
  rw [View.canon_unit_zero (S := S1x1) hz2]
  simp only [View.readAt_eq_ld, harg2.read_unread, harg3.read_unread, harg5.read_unread, View.readCov_unit_zero (S := S1x1) _ hz2, View.ld_unit_zero (S := S1x1) hz2, View.ld_unit_zero (S := S512x64) hz2]

theorem cover_D (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole) (hc1 : ¬cond1 i) (hc2 : cond2 i) (hc3 : cond3 i) (x0 x1 : Vec F S512x64 .f32) (xs : Vec F S1x1 .f32) (y : S1x1.Idx) :
    ∃ pc ∈ (kernelRun_D c i arg2 harg2 arg3 harg3 arg4 harg4 arg5 harg5 hc1 hc2 hc3 x0 x1 xs).1, y ∈ pc.1.set :=
  View.cover_of_tiledL (kernelRun_D c i arg2 harg2 arg3 harg3 arg4 harg4 arg5 harg5 hc1 hc2 hc3 x0 x1 xs).1 S1x1.size (by sl_kernel_rfl) y

theorem scover_D (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole) (hc1 : ¬cond1 i) (hc2 : cond2 i) (hc3 : cond3 i) (x0 x1 : Vec F S512x64 .f32) (xs : Vec F S1x1 .f32) (y : S1x1.Idx) :
    ∃ pc ∈ (kernelRun_D c i arg2 harg2 arg3 harg3 arg4 harg4 arg5 harg5 hc1 hc2 hc3 x0 x1 xs).2.1, y ∈ pc.1.set :=
  View.cover_of_tiledL (kernelRun_D c i arg2 harg2 arg3 harg3 arg4 harg4 arg5 harg5 hc1 hc2 hc3 x0 x1 xs).2.1 S1x1.size (by sl_kernel_rfl) y

/-- The last point leaves the updated cell over the pair count in the output block, -/
theorem canon_D_out (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole) (hc1 : ¬cond1 i) (hc2 : cond2 i) (hc3 : cond3 i) (x0 x1 : Vec F S512x64 .f32) (xs : Vec F S1x1 .f32) :
    View.canon (kernelRun_D c i arg2 harg2 arg3 harg3 arg4 harg4 arg5 harg5 hc1 hc2 hc3 x0 x1 xs).1 = k0_pay3 (k0_pay2 xs (k0_pay4 (BitVec.ofNat 32 (i 0).val) (BitVec.ofNat 32 (i 1).val) x0 x1)) := by
  unfold kernelRun_D; dsimp only; sl_unfold_words
  rw [View.canon_unit_zero (S := S1x1) hz2]
  simp only [View.readAt_eq_ld, harg2.read_unread, harg3.read_unread, harg5.read_unread, View.readCov_unit_zero (S := S1x1) _ hz2, View.ld_unit_zero (S := S1x1) hz2, View.ld_unit_zero (S := S512x64) hz2]

/-- and the updated cell in the cell. -/
theorem canon_D_acc (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole) (hc1 : ¬cond1 i) (hc2 : cond2 i) (hc3 : cond3 i) (x0 x1 : Vec F S512x64 .f32) (xs : Vec F S1x1 .f32) :
    View.canon (kernelRun_D c i arg2 harg2 arg3 harg3 arg4 harg4 arg5 harg5 hc1 hc2 hc3 x0 x1 xs).2.1 = k0_pay2 xs (k0_pay4 (BitVec.ofNat 32 (i 0).val) (BitVec.ofNat 32 (i 1).val) x0 x1) := by
  unfold kernelRun_D; dsimp only; sl_unfold_words
  rw [View.canon_unit_zero (S := S1x1) hz2]
  simp only [View.readAt_eq_ld, harg2.read_unread, harg3.read_unread, harg5.read_unread, View.readCov_unit_zero (S := S1x1) _ hz2, View.ld_unit_zero (S := S1x1) hz2, View.ld_unit_zero (S := S512x64) hz2]

/-! ## The accumulator along the grid -/

/-- The scratch cell after point `n` on core `c`. -/
def accT (c : Dev nD) (n : ℕ) : Vec F S1x1 .f32 := accAt (tile0 m c) (tile1 m c) n

theorem tile0_eq (c : Dev nD) (t : Fin cfg0.N) : tile0 m c t.val = iblk m c 0 t := by
  have h : (⟨t.val % 256, lt_of_lt_of_eq (Nat.mod_lt _ (by decide)) N_0.symm⟩ : Fin cfg0.N) = t :=
    Fin.ext (Nat.mod_eq_of_lt (lt_of_lt_of_eq t.isLt N_0))
  unfold tile0; rw [h]

theorem tile1_eq (c : Dev nD) (t : Fin cfg0.N) : tile1 m c t.val = iblk m c 1 t := by
  have h : (⟨t.val % 256, lt_of_lt_of_eq (Nat.mod_lt _ (by decide)) N_0.symm⟩ : Fin cfg0.N) = t :=
    Fin.ext (Nat.mod_eq_of_lt (lt_of_lt_of_eq t.isLt N_0))
  unfold tile1; rw [h]

/-- At the first point the cell is zero plus the first tile's sum. -/
theorem accT_first (c : Dev nD) (t : Fin cfg0.N) (h : t.val = 0) :
    accT m c t.val = k0_pay2 (k0_pay1 (F := F)) (k0_pay4 (BitVec.ofNat 32 ((grid0.coords t) 0).val) (BitVec.ofNat 32 ((grid0.coords t) 1).val) (iblk m c 0 t) (iblk m c 1 t)) := by
  rw [(coords_val t).1, (coords_val t).2, ← tile0_eq m c t, ← tile1_eq m c t, h]
  rfl

/-- At a later point on or above the diagonal it is the cell before plus the point's tile sum. -/
theorem accT_step (c : Dev nD) (t : Fin cfg0.N) (h0 : t.val ≠ 0) (h2 : t.val / 16 % 16 ≤ t.val % 16) :
    accT m c t.val = k0_pay2 (accT m c (t.val - 1)) (k0_pay4 (BitVec.ofNat 32 ((grid0.coords t) 0).val) (BitVec.ofNat 32 ((grid0.coords t) 1).val) (iblk m c 0 t) (iblk m c 1 t)) := by
  rw [(coords_val t).1, (coords_val t).2, ← tile0_eq m c t, ← tile1_eq m c t]
  obtain ⟨n, hn⟩ := t
  cases n with
  | zero => exact absurd rfl h0
  | succ n => exact if_pos h2

/-- At a point below the diagonal it is the cell before. -/
theorem accT_skip (c : Dev nD) (t : Fin cfg0.N) (h0 : t.val ≠ 0) (h2 : ¬t.val / 16 % 16 ≤ t.val % 16) :
    accT m c t.val = accT m c (t.val - 1) := by
  obtain ⟨n, hn⟩ := t
  cases n with
  | zero => exact absurd rfl h0
  | succ n => exact if_neg h2

/-! ## The region's invariant and the proof data -/

/-- Before the first point the class's invariant (the cell at anything); before point n + 1 the cell at the
    accumulator after point n, and the generator register at some state. -/
def PhiS (c : Dev nD) : (n : ℕ) → n ≤ cfg0.N → sProp 𝕄
  | 0, _ => Pipeline.ΦA spec0 c
  | n + 1, _ => iprop(iprop(owns (c : Thread nD τ) scM fullShare (accT m c n)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accT m c n)) ∗ (∃ r, prngReg c r)) := rfl

theorem PhiS_pos (c : Dev nD) (n : ℕ) (h : n ≤ cfg0.N) (hz : n ≠ 0) :
    PhiS m c n h = iprop(iprop(owns (c : Thread nD τ) scM fullShare (accT m c (n - 1))) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outFinal (tile0 m c) (tile1 m c)
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outFinal (tile0 m c) (tile1 m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The final quotient is the last point's output store. -/
theorem outFinal_last (c : Dev nD) (t : Fin cfg0.N) (h : t.val = 255) :
    outFinal (tile0 m c) (tile1 m c) = k0_pay3 (accT m c t.val) := by
  unfold outFinal accT; rw [h]

end Cert.Kernel.Hand

end
-- ==== Proof.K.Body.lean ====
/-
  The body obligation of the kernel's pipeline, at every float instance: at each grid point the closed forms of the
  three conditions say which case the point is in, that case's run applies to the point's staging memrefs, and what
  its stores leave in the scratch cell is the accumulator after the point.
-/
import proofs.«150324_j206158430576_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  by_cases h3 : t.val = 255
  · -- the last point: on the diagonal, the output block stored
    have hc3 : cond3 (grid0.coords t) := (hcond3 t).mpr h3
    have hz : t.val ≠ 0 := by omega
    have hc1 : ¬cond1 (grid0.coords t) := fun h => hz ((hcond1 t).mp h)
    have h2 : t.val / 16 % 16 ≤ t.val % 16 := by omega
    have hc2 : cond2 (grid0.coords t) := (hcond2 t).mpr h2
    rw [show (dats m 0 c).leavesExact 2 t = owns (c : Thread nD τ) (ms0_2 t) fullShare ((dats m 0 c).after 2 t) from by
      unfold Dat.leavesExact; rw [liveAt0_2 t hc3], after0_2]
    rw [PhiS_castSucc m c t, PhiS_pos m c _ _ hz]
    iintro ⟨⟨HS, Hg⟩, Ho, ⟨%d0, H0⟩, ⟨%d1, H1⟩, ⟨%d2, H2⟩⟩
    iapply ((kernelRun_D c (grid0.coords t) _ _ _ _ _ _ _ _ hc1 hc2 hc3 (iblk m c 0 t) (iblk m c 1 t) (accT m c (t.val - 1))).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hg]
    · isplitl [HS]
      · unfold owns; iexists _; isplitr
        swap; · iexact HS
        ipureintro
        exact (View.read_writes_eq_canon _ _ _ (scover_D c _ _ _ _ _ _ _ _ _ hc1 hc2 hc3 _ _ _)).trans ((canon_D_acc c _ _ _ _ _ _ _ _ _ hc1 hc2 hc3 _ _ _).trans (accT_step m c t hz h2).symm)
      iexact Hg
    isplitl [Ho]; · iexact Ho
    isplitl [H0]; · iexact H0
    isplitl [H1]; · iexact H1
    unfold owns; iexists _; isplitr
    swap; · iexact H2
    ipureintro
    exact (View.read_writes_eq_canon _ _ _ (cover_D c _ _ _ _ _ _ _ _ _ hc1 hc2 hc3 _ _ _)).trans ((canon_D_out c _ _ _ _ _ _ _ _ _ hc1 hc2 hc3 _ _ _).trans
      (by rw [outFinal_last m c t h3, accT_step m c t hz h2]))
  · have hc3 : ¬cond3 (grid0.coords t) := fun h => h3 ((hcond3 t).mp h)
    rw [Dat.leavesExact_idle (dats m 0 c) 2 t (idleAt0_2 t hc3) (noFlush0_2 t hc3)]
    by_cases hz : t.val = 0
    · -- the first point: the cell zeroed, then the first tile's sum added
      have hc1 : cond1 (grid0.coords t) := (hcond1 t).mpr hz
      have hc2 : cond2 (grid0.coords t) := (hcond2 t).mpr (by omega)
      rw [PhiS_castSucc m c t, PhiS_zero m c _ _ hz, PhiA0_eq]
      iintro ⟨⟨HS, Hg⟩, Ho, ⟨%d0, H0⟩, ⟨%d1, H1⟩, ⟨%d2, H2⟩⟩
      iapply ((kernelRun_A c (grid0.coords t) _ _ _ _ _ _ _ _ hc1 hc2 hc3 (iblk m c 0 t) (iblk m c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro
          exact (View.read_writes_eq_canon _ _ _ (scover_A c _ _ _ _ _ _ _ _ _ hc1 hc2 hc3 _ _)).trans ((canon_A c _ _ _ _ _ _ _ _ _ hc1 hc2 hc3 _ _).trans (accT_first m c t hz).symm)
        iexact Hg
      isplitl [Ho]; · iexact Ho
      isplitl [H0]; · iexact H0
      isplitl [H1]; · iexact H1
      iexists _; iexact H2
    · have hc1 : ¬cond1 (grid0.coords t) := fun h => hz ((hcond1 t).mp h)
      rw [PhiS_castSucc m c t, PhiS_pos m c _ _ hz]
      by_cases h2 : t.val / 16 % 16 ≤ t.val % 16
      · -- on or above the diagonal: the tile's sum added to what the point before left
        have hc2 : cond2 (grid0.coords t) := (hcond2 t).mpr h2
        iintro ⟨⟨HS, Hg⟩, Ho, ⟨%d0, H0⟩, ⟨%d1, H1⟩, ⟨%d2, H2⟩⟩
        iapply ((kernelRun_B c (grid0.coords t) _ _ _ _ _ _ _ _ hc1 hc2 hc3 (iblk m c 0 t) (iblk m c 1 t) (accT m c (t.val - 1))).2 _ Set.univ _)
        isplitl [H0]; · iexact H0
        isplitl [H1]; · iexact H1
        isplitl [H2]; · iexact H2
        isplitl [HS]; · iexact HS
        iintro ⟨H0, H1, H2, ⟨%es, HS⟩⟩
        isplitl [HS Hg]
        · isplitl [HS]
          · unfold owns; iexists _; isplitr
            swap; · iexact HS
            ipureintro
            exact (View.read_writes_eq_canon _ _ _ (scover_B c _ _ _ _ _ _ _ _ _ hc1 hc2 hc3 _ _ _)).trans ((canon_B c _ _ _ _ _ _ _ _ _ hc1 hc2 hc3 _ _ _).trans (accT_step m c t hz h2).symm)
          iexact Hg
        isplitl [Ho]; · iexact Ho
        isplitl [H0]; · iexact H0
        isplitl [H1]; · iexact H1
        iexists _; iexact H2
      · -- below the diagonal: nothing touched
        have hc2 : ¬cond2 (grid0.coords t) := fun h => h2 ((hcond2 t).mp h)
        rw [accT_skip m c t hz h2]
        iintro ⟨⟨HS, Hg⟩, Ho, ⟨%d0, H0⟩, ⟨%d1, H1⟩, ⟨%d2, H2⟩⟩
        iapply (kernelRun_C c (grid0.coords t) _ _ _ _ _ _ _ _ hc1 hc2 hc3 (iblk m c 0 t) (iblk m c 1 t) _ (accT m c (t.val - 1)) Set.univ _)
        isplitl [H0]; · iexact H0
        isplitl [H1]; · iexact H1
        isplitl [H2]; · iexact H2
        isplitl [HS]; · iexact HS
        iintro ⟨H0, H1, H2, HS⟩
        isplitl [HS Hg]
        · isplitl [HS]; · iexact HS
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the cell's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), PhiA0_eq]
  iintro ⟨HS, Hg⟩
  isplitl [HS]
  · iexists _; iexact HS
  iexact Hg

end Cert.Kernel.Hand

end
-- ==== Proof.K.Final.lean ====
/-
  What the pipeline's arrays hold after the last write-back, at every float instance.

  The output window's one block is the whole 1 × 1 array and is written back once, at the last grid point, holding the
  final quotient; so the array ends at the final quotient.  The input windows' array is never written.
-/
import proofs.«150324_j206158430576_1_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A 1 × 1 array has one index. -/
instance subsingleton_S1x1 : Subsingleton S1x1.Idx :=
  ⟨fun a b => funext fun d => Fin.ext (by
    match d with
    | ⟨0, h⟩ => have ha : (a ⟨0, h⟩).val < 1 := (a ⟨0, h⟩).isLt; have hb : (b ⟨0, h⟩).val < 1 := (b ⟨0, h⟩).isLt; omega
    | ⟨1, h⟩ => have ha : (a ⟨1, h⟩).val < 1 := (a ⟨1, h⟩).isLt; have hb : (b ⟨1, h⟩).val < 1 := (b ⟨1, h⟩).isLt; omega)⟩

/-- What a point writes back of the output window is the block of the constant array at the final quotient. -/
theorem flushed2_eq (c : Dev nD) (t : Fin cfg0.N) :
    (dats m 0 c).flushed 2 t = ((cfg0.win 2).blk t).view.read (Elt F) (outFinal (tile0 m c) (tile1 m c) : S1x1.Idx → Elt F .f32) := by
  show (cfg0.win 2).cut (grid0.coords t) ((dats m 0 c).after 2 t) = _
  rw [after0_2]
  funext j
  show outFinal (tile0 m c) (tile1 m c) j = outFinal (tile0 m c) (tile1 m c) (((cfg0.win 2).blk t).view.emb j)
  exact congrArg (outFinal (tile0 m c) (tile1 m c)) (Subsingleton.elim (α := S1x1.Idx) j (((cfg0.win 2).blk t).view.emb j))

/-- The last point's block of the output window is the whole array. -/
theorem cover2 (i : S1x1.Idx) : ∃ t : Fin cfg0.N, (cfg0.win 2).flush t = true ∧ i ∈ ((cfg0.win 2).blk t).view.set := by
  have hlast : 255 < cfg0.N := lt_of_lt_of_eq (by decide : 255 < 256) N_0.symm
  refine ⟨⟨255, hlast⟩, (flush0_2 ⟨255, hlast⟩).mpr rfl, ?_⟩
  show i ∈ ((View.whole main_v0).slice (win0_2.rect ⟨255, hlast⟩)).set
  rw [View.set_slice_whole, Rect.mem_set_unit]
  intro a
  match a with
  | ⟨0, h⟩ => have hi : (i ⟨0, h⟩).val < 1 := (i ⟨0, h⟩).isLt; exact ⟨by show 0 * 1 ≤ _; omega, by show _ < 0 * 1 + 1; omega⟩
  | ⟨1, h⟩ => have hi : (i ⟨1, h⟩).val < 1 := (i ⟨1, h⟩).isLt; exact ⟨by show 0 * 1 ≤ _; omega, by show _ < 0 * 1 + 1; omega⟩

/-- The output array after the run: the final quotient. -/
theorem final2 (c : Dev nD) : (dats m 0 c).arrAt 2 cfg0.N = (outFinal (tile0 m c) (tile1 m c) : S1x1.Idx → Elt F .f32) :=
  (dats m 0 c).arrAt_eq_of_cover 2 _ (fun t _ => flushed2_eq m c t) cover2

/-- The input array after the run: as the region found it. -/
theorem final0 (c : Dev nD) : (dats m 0 c).arrAt 0 cfg0.N = m ((c : Thread nD τ).loc main_arg0) :=
  ((dats m 0 c).arrAt_in 0 rfl _).trans (A_eq m c 0)

end Cert.Kernel.Hand

end
-- ==== Proof.K.Launch.lean ====
/-
  The launch of the program: one pallas_call whose two input windows read ONE array, continued by a reshape of its
  1 x 1 result to a scalar, for every float instance.

  The array read by two windows is dealt between them by halving its full share; the output array is held whole.
  After the region the reshape runs holding the output array and the scalar's buffer, and hands both back: the
  output array unchanged, the scalar at the row-major reshape of the output array's final contents.
-/
import proofs.«150324_j206158430576_1_alg».proof.Proof.Gen.Kernel.Launch
import proofs.«150324_j206158430576_1_alg».proof.Proof.Gen.Kernel.Skeleton
import proofs.«150324_j206158430576_1_alg».proof.Proof.Gen.Kernel.Points
import Idealize.ShloMosaic.Lib.Pipeline.FrameSuffix
import Idealize.ShloMosaic.Lib.StableHlo.Run
import Idealize.ShloMosaic.Lib.Tactic

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The array the two input windows read, whole at the full share, dealt between them in halves, and the output array
    whole: the buffers behind the windows' arrays at the launch contents are the proof data's arrays at entry. -/
theorem arrays_deal
    (dats : (p : Fin 1) → (c : Dev nD) → Pipeline.Dat τ (Elt F) Unit ℕ (UR sig nD τ) ℕ (cfgs p) c)
    (m : (ℓ : Loc nD τ sig) → Buf (Elt F) ℓ) (c : Dev nD)
    (hA : ∀ w, (dats 0 c).A w = m ((c : Thread nD τ).loc (Pipeline.arrRef spec0 w)))
    (hq0 : (dats 0 c).q 0 = fullShare.left) (hq1 : (dats 0 c).q 1 = fullShare.right) :
    (Pipeline.arrBufs spec0 c (fun b => m ((c : Thread nD τ).loc b)) : sProp 𝕄)
      ⊢ (dats 0 c).arrays ((dats 0 c).arrAt · 0) := by
  have hs0 : (dats 0 c).share 0 = fullShare.left := by
    unfold Dat.share; exact (if_neg Bool.false_ne_true).trans hq0
  have hs1 : (dats 0 c).share 1 = fullShare.right := by
    unfold Dat.share; exact (if_neg Bool.false_ne_true).trans hq1
  have hs2 : (dats 0 c).share 2 = fullShare := by
    unfold Dat.share; exact if_pos rfl
  unfold Pipeline.arrBufs Dat.arrays
  rw [bigSep_W0, show Finset.univ.image (Pipeline.arrRef spec0) = {main_arg0, main_v0} from by decide,
    bigSep_insert (by decide), bigSep_singleton]
  rw [hs0, hs1, hs2, (arr_whole0 0).set_eq_univ, (arr_whole0 2).set_eq_univ]
  have e0 : (dats 0 c).arrAt 0 0 = m ((c.tc : Thread nD τ).loc main_arg0) := hA 0
  have e1 : (dats 0 c).arrAt 1 0 = m ((c.tc : Thread nD τ).loc main_arg0) := hA 1
  have e2 : (dats 0 c).arrAt 2 0 = m ((c.tc : Thread nD τ).loc main_v0) := hA 2
  show iprop((((c.tc : Thread nD τ).loc main_arg0) ↦{fullShare} m ((c.tc : Thread nD τ).loc main_arg0))
        ∗ (((c.tc : Thread nD τ).loc main_v0) ↦{fullShare} m ((c.tc : Thread nD τ).loc main_v0)))
      ⊢ (iprop((((c.tc : Thread nD τ).loc main_arg0) ↦{fullShare.left} (dats 0 c).arrAt 0 0)
        ∗ (((c.tc : Thread nD τ).loc main_arg0) ↦{fullShare.right} (dats 0 c).arrAt 1 0)
        ∗ (((c.tc : Thread nD τ).loc main_v0) ↦{fullShare} (dats 0 c).arrAt 2 0)) : sProp 𝕄)
  rw [e0, e1, e2]
  iintro ⟨Ha, Hv⟩
  ihave H := (pointsTo_share (PosShare.mem_left_op_right fullShare)).mp $$ Ha
  icases H with ⟨Hl, Hr⟩
  isplitl [Hl]; · iexact Hl
  isplitl [Hr]; · iexact Hr
  iexact Hv

/-- The contents the scalar's buffer ends at on core `c`: the row-major reshape of the output array's final contents. -/
abbrev scalarOf (dats : (p : Fin 1) → (c : Dev nD) → Pipeline.Dat τ (Elt F) Unit ℕ (UR sig nD τ) ℕ (cfgs p) c) (c : Dev nD) :
    Buf (Elt F) ((c.tc : Thread nD τ).loc main_v1) :=
  fun i => shapeCast S_ ((dats 0 c).arrAt 2 cfg0.N) Facts₀.shapeCasts_S1x1_S_ i

set_option backward.isDefEq.respectTransparency.types false in
/-- After the region: holding the boundary, the arrays at their final contents and the scalar's buffer at its launch
    contents, the reshape runs on the output array and the scalar's buffer — it reads the first and writes the second —
    and the return hands back the arrays as they were and the scalar's buffer at the reshaped contents. The array the
    input windows read stays in its two halves throughout: the reshape does not name it. -/
theorem tail_reshape
    (dats : (p : Fin 1) → (c : Dev nD) → Pipeline.Dat τ (Elt F) Unit ℕ (UR sig nD τ) ℕ (cfgs p) c)
    (m : (ℓ : Loc nD τ sig) → Buf (Elt F) ℓ) (c : Dev nD) (Q' : PUnit → sProp 𝕄) :
    iprop((iprop((dats 0 c).arrays ((dats 0 c).arrAt · cfg0.N) ∗ (((c.tc : Thread nD τ).loc main_v1) ↦{fullShare} scalarOf dats c)) -∗ Q' ⟨⟩)
        ∗ boundary (c.tc : Thread nD τ) ∗ (dats 0 c).arrays ((dats 0 c).arrAt · cfg0.N)
        ∗ Pipeline.unscopedRest spec0 c (fun b => m ((c.tc : Thread nD τ).loc b)))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  classical
  -- the device's contents after the region, where the reshape looks: the output array at its final contents,
  -- every other buffer as launched
  let W : Valuation τ sig (Elt F) :=
    Function.update (fun b => m (c, b)) (Proc.devRef .tc main_v0) ((dats 0 c).arrAt 2 cfg0.N)
  let S : Finset (DevRef τ sig) := {Proc.devRef .tc main_v0, Proc.devRef .tc main_v1}
  have hne : (Proc.devRef .tc main_v1 : DevRef τ sig) ≠ Proc.devRef .tc main_v0 := StableHlo.devRef_ne_of_ne (by decide)
  have hW0 : W (Proc.devRef .tc main_v0) = (dats 0 c).arrAt 2 cfg0.N := Function.update_self ..
  have hW1 : W (Proc.devRef .tc main_v1) = m ((c.tc : Thread nD τ).loc main_v1) := Function.update_of_ne hne ..
  have hs2 : (dats 0 c).share 2 = fullShare := by unfold Dat.share; exact if_pos rfl
  have hheld : ∀ W' : Valuation τ sig (Elt F), (StableHlo.held (c.tc : Thread nD τ) S W' : sProp 𝕄)
      = iprop((((c.tc : Thread nD τ).loc main_v0) ↦{fullShare} W' (Proc.devRef .tc main_v0))
          ∗ (((c.tc : Thread nD τ).loc main_v1) ↦{fullShare} W' (Proc.devRef .tc main_v1))) := by
    intro W'
    unfold StableHlo.held
    rw [bigSep_insert (by rw [Finset.mem_singleton]; exact hne.symm), bigSep_singleton]
    rfl
  have hsub : ∀ op ∈ (hostOps1 : List (HloOp τ sig (Elt F))), op.bufs ⊆ S := by
    intro op hop
    simp only [hostOps1, List.mem_cons, List.mem_nil_iff, or_false] at hop
    subst hop
    exact subset_refl _
  have hfresh : ∀ op ∈ (hostOps1 : List (HloOp τ sig (Elt F))), op.fresh = ∅ := by
    intro op hop
    simp only [hostOps1, List.mem_cons, List.mem_nil_iff, or_false] at hop
    subst hop
    rfl
  have hr0 : StableHlo.after (hostOps1 (F := F)) W (Proc.devRef .tc main_v0) = (dats 0 c).arrAt 2 cfg0.N := by
    show (StableHlo.reshape main_v0 main_v1 rfl Facts₀.shapeCasts_S1x1_S_ : HloOp τ sig (Elt F)).result W (Proc.devRef .tc main_v0) = _
    rw [StableHlo.reshape_result_ne _ _ _ _ _ _ _ (by decide), hW0]
  have hr1 : StableHlo.after (hostOps1 (F := F)) W (Proc.devRef .tc main_v1) = scalarOf dats c := by
    show (StableHlo.reshape main_v0 main_v1 rfl Facts₀.shapeCasts_S1x1_S_ : HloOp τ sig (Elt F)).result W (Proc.devRef .tc main_v1) = _
    rw [StableHlo.reshape_result, hW0]
    rfl
  have hrun := StableHlo.wp_seq (Λ := Pipeline.Sig Λ₀ (Fin 1) fun p => ((cfgs p).toPCfg (Val := Elt F)).Adm)
    (defs := Pipeline.defs (fun q => (cfgs q).toPCfg (Val := Elt F)) defs₀) (Ix := Unit) (Name := ℕ) (U := UR sig nD τ) (Lvl := ℕ)
    (Variants.lift Variants.none) none Set.univ c S (fun _ => Pipeline.chain []) (K := Q') hostOps1 hsub hfresh W
  rw [hheld, hheld, hr0, hr1, hW0, hW1, Pipeline.chain_nil, wp_pure] at hrun
  unfold Dat.arrays
  rw [bigSep_W0, hs2, (arr_whole0 2).set_eq_univ, unscopedRest0_eq, Pipeline.chain_cons]
  iintro ⟨Hk, Hb, ⟨Ha, Hc, Hv⟩, Hz⟩
  iapply hrun $$ [Hb Hv Hz]
  · isplitl [Hb]; · iexact Hb
    isplitl [Hv]; · iexact Hv
    iexact Hz
  iintro ⟨Hb, Hv, Hz⟩
  imodintro
  iapply Hk
  isplitr [Hz]
  · isplitl [Ha]; · iexact Ha
    isplitl [Hc]; · iexact Hc
    iexact Hv
  · iexact Hz

set_option backward.isDefEq.respectTransparency.types false in
/-- The run of @main from any launch memory, at proof data whose two input windows hold the shared array in the two
    halves of the full share, that owe nothing, and whose invariant is entered from and left to the class invariant
    (the scratch at some contents, the generator register at some state): every weakly fair execution terminates, the
    scalar's buffer ends at the row-major reshape of the output window's final array, and the shared input array ends at
    the first window's final array. The generator register is routed into the invariant at entry and let go at exit. -/
theorem run_shared
    (dats : (p : Fin 1) → (c : Dev nD) → Pipeline.Dat τ (Elt F) Unit ℕ (UR sig nD τ) ℕ (cfgs p) c)
    (m : (ℓ : Loc nD τ sig) → Buf (Elt F) ℓ) (ρ : Dev nD → PrngReg)
    (hbody : ∀ c, Pipeline.BodyObligationLoose (dats 0 c) (defs₀ (F := F)) Variants.none () Set.univ)
    (hA : ∀ c w, (dats 0 c).A w = m ((c : Thread nD τ).loc (Pipeline.arrRef spec0 w)))
    (hq0 : ∀ c, (dats 0 c).q 0 = fullShare.left) (hq1 : ∀ c, (dats 0 c).q 1 = fullShare.right)
    (howed : ∀ c t, (dats 0 c).owed t = 0)
    (hin : ∀ c, Pipeline.ΦA spec0 c ⊢ (dats 0 c).Φ 0)
    (hout : ∀ c, (dats 0 c).Φ (Fin.last cfg0.N) ⊢ Pipeline.ΦA spec0 c) :
    θ_run (defs (F := F)) (onTc (τ := τ) (main (F := F))) (s₀ m ρ) (fun r => ∀ c : Dev nD,
      r.2.mem ((c.tc : Thread nD τ).loc main_v1) = (fun i => shapeCast S_ ((dats 0 c).arrAt 2 cfg0.N) Facts₀.shapeCasts_S1x1_S_ i)
      ∧ r.2.mem ((c.tc : Thread nD τ).loc main_arg0) = (dats 0 c).arrAt 0 cfg0.N) := by
  classical
  refine Pipeline.θ_run_region_pf_tail (fun q => (cfgs q).toPCfg (Val := Elt F)) (fun q => (cfgs q).toPCfg_adm) dats ()
    cellOf_inj (0 : Fin 1) winFacts₀0 (Pipeline.OwnSemFacts.none _) (Pipeline.PreFacts.none _) emb₁ defs₀ Variants.none m ρ main
    (fun _ => Pipeline.chain [StableHlo.seq hostOps1])
    hbody block_pos0 arr_whole0 stage_whole0 howed
    (fun _ => BI.emp) (initOf (Pipeline.cells (Pipeline.pin (fun q => (cfgs q).toPCfg (Val := Elt F)) fun q => (cfgs q).toPCfg_adm) cellOf_inj)
      (Pipeline.launchToks (Pipeline.pin (fun q => (cfgs q).toPCfg (Val := Elt F)) fun q => (cfgs q).toPCfg_adm) cellOf_inj)) ?hu
    (fun c b => m ((c : Thread nD τ).loc b)) ?hmain ?hsplit (fun _ k => k.elim0)
    (fun c => iprop(∃ r, prngReg c r)) (fun c => iprop(∃ r, prngReg c r))
    (fun c => Pipeline.unscopedRest spec0 c (fun b => m ((c : Thread nD τ).loc b)))
    (fun c => (((c.tc : Thread nD τ).loc main_v1) ↦{fullShare} scalarOf dats c : sProp 𝕄))
    ?hX ?hin ?hout ?htail
    (fun c s => s.mem ((c.tc : Thread nD τ).loc main_v1) = scalarOf dats c) ?hY ?hQ
  case hu =>
    rw [ownU_emb₁]
    iintro Hu; imodintro
    isplitl [Hu]; · iexact Hu
    rw [BI.bigSep_emp_const]; iempintro
  case hmain =>
    intro c Q
    exact Pipeline.hmain_around cfgs 0 defs₀ Variants.none m main [] [hostOps1] (by simp only [List.Forall])
      (by simp only [List.Forall]) main_chain c Q
  case hsplit => exact fun c => arrays_deal dats m c (hA c) (hq0 c) (hq1 c)
  case hX =>
    intro c
    rw [Pipeline.unscopedRestP_none]
    iintro ⟨HU, -, -, -, Hp, -⟩; imodintro
    isplitl [Hp]; · iexists _; iexact Hp
    iexact HU
  case hin =>
    intro c
    refine BIBase.Entails.trans ?_ (hin c)
    unfold Pipeline.ΦA
    iintro ⟨Hp, -, Hr⟩
    isplitl [Hr] <;> iassumption
  case hout =>
    intro c
    refine (hout c).trans ?_
    rw [Pipeline.ownSems0_none]; unfold Pipeline.ΦA
    iintro ⟨Hr, Hp⟩
    isplitl [Hp]; · iexact Hp
    isplitr; · iempintro
    iexact Hr
  case htail => exact fun c Q' => tail_reshape dats m c Q'
  case hY =>
    intro c s'
    iintro ⟨-, HZ, HSI⟩
    icombine HSI HZ gives %h
    imodintro
    isplitr; · ipureintro; exact Buf.eq_of_forall_mem_univ h
    iexact HSI
  case hQ =>
    intro s h c
    exact ⟨(h c).2.2, (h c).1 0⟩

end Cert.Kernel.Hand

end
-- ==== Proof.K.Run.lean ====
/-
  The program's run with its result named, at every float instance: every weakly fair execution of @main ends with
  the scalar result at the final quotient (the 1 × 1 output array reshaped) and the argument array unchanged.  The
  frame claim is this run with the result forgotten.
-/
import proofs.«150324_j206158430576_1_alg».proof.Proof.K.Final
import proofs.«150324_j206158430576_1_alg».proof.Proof.K.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run: the result buffer at the reshaped final quotient, the argument as it was. -/
theorem run_main : θ_run (defs (F := F)) (onTc (τ := τ) (main (F := F))) ⟨m, fun _ => 0, ρ⟩ (fun r => ∀ c : Dev nD,
      r.2.mem ((c.tc : Thread nD τ).loc main_v1) = (fun i => shapeCast S_ (outFinal (tile0 m c) (tile1 m c) : S1x1.Idx → Elt F .f32) shapeCasts_S1x1_S_ i)
      ∧ r.2.mem ((c.tc : Thread nD τ).loc main_arg0) = m ((c.tc : Thread nD τ).loc main_arg0)) :=
  (θ_run defs _ _).mono (fun r h c => ⟨(h c).1.trans (by rw [final2 m c]), (h c).2.trans (final0 m c)⟩)
    (run_shared (dats m) m ρ (fun c => (body_obligation m c).loose) (A_eq m) (fun _ => rfl) (fun _ => rfl) (fun _ _ => rfl) (hin m) (hout m))

/-- The frame: the program runs to its end and leaves its argument array unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.Kernel.Hand

end
-- ==== Proof.Acc.lean ====
/-
  The accumulator of the kernel, as a pure function of the input tiles, at every float instance.

  The kernel keeps one number in a 1 × 1 scratch cell across its 16 × 16 grid (row-major, 256 points).  At the first
  point it stores zero there and then, like at every later point whose column tile is not left of its row tile, reads
  the cell, adds the point's masked tile sum (the generated payload `k0_pay4` of the two input tiles and the two grid
  coordinates) and stores the sum back (`k0_pay2`); at the points below the diagonal the cell is left alone.  At
  the last point it divides the cell by the pair count and stores the quotient into the 1 × 1 output block (`k0_pay3`).

  `accAt B0 B1 n` is the cell after point `n`, for any two families of tiles `B0 n`, `B1 n` (what the two input
  windows hold at point `n`); `outFinal` is the output block the last point writes back.
-/
import proofs.«150324_j206158430576_1_alg».proof.Proof.Gen.KernelIdeal.Skeleton

noncomputable section

namespace Cert.KernelIdeal.Hand

open Cert.KernelIdeal Cert.KernelIdeal.Gen Idealize.ShloMosaic

variable {F : FTy → Type} [FloatOps F]

/-- The scratch cell after grid point `n`. -/
def accAt (B0 B1 : ℕ → Vec F S512x64 .f32) : ℕ → Vec F S1x1 .f32
  | 0 => k0_pay2 (k0_pay1 (F := F)) (k0_pay4 (BitVec.ofNat 32 0) (BitVec.ofNat 32 0) (B0 0) (B1 0))
  | n + 1 =>
    if (n + 1) / 16 % 16 ≤ (n + 1) % 16 then
      k0_pay2 (accAt B0 B1 n) (k0_pay4 (BitVec.ofNat 32 ((n + 1) / 16 % 16)) (BitVec.ofNat 32 ((n + 1) % 16)) (B0 (n + 1)) (B1 (n + 1)))
    else accAt B0 B1 n

/-- The output block the last grid point writes back: the cell over the pair count. -/
def outFinal (B0 B1 : ℕ → Vec F S512x64 .f32) : Vec F S1x1 .f32 := k0_pay3 (accAt B0 B1 255)

end Cert.KernelIdeal.Hand

end
-- ==== Proof.KI.Setup.lean ====
/-
  What the runs of the kernel's body are stated over, at every float instance: the arrays as the region finds
  them, each input window's block at a grid point, the three conditions of the body decided over the 16 × 16 grid,
  where the output window is idle, and the staging and scratch memrefs.

  The grid is row-major: point t has tile row t / 16 and tile column t % 16.  The body's first condition (both
  coordinates zero) holds at point 0 only; the second (column tile not left of row tile) at the points on or above
  the diagonal; the third (both coordinates fifteen) at point 255 only, the one point where the body stores into the
  output block and the pipeline writes it back.
-/
import proofs.«150324_j206158430576_1_alg».proof.Proof.Gen.KernelIdeal.Launch
import proofs.«150324_j206158430576_1_alg».proof.Proof.Gen.KernelIdeal.Skeleton
import proofs.«150324_j206158430576_1_alg».proof.Proof.Gen.KernelIdeal.Points
import proofs.«150324_j206158430576_1_alg».proof.Proof.Acc
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and the windows' blocks -/

/-- Core `c`'s buffer contents when the region is entered: no host operation runs before it, so the launch contents. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for input window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's conditions, decided over the grid -/

/-- Both grid coordinates are zero, as the body computes it. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond1 : ∀ t : Fin cfg0.N, cond1 (grid0.coords t) ↔ t.val = 0 :=
  (by decide +kernel : ∀ t : Fin grid0.N, cond1 (grid0.coords t) ↔ t.val = 0)

/-- The column tile is not left of the row tile, as the body computes it (a signed comparison of the coordinates). -/
abbrev cond2 (i : grid0.Coords) : Prop :=
  (Scalar.cmpi .ne (Scalar.extui (Scalar.cmpi .sge (BitVec.ofNat 32 (i 1).val) (BitVec.ofNat 32 (i 0).val))) 0#32) = 1#1
/-- It holds where t / 16 ≤ t % 16. -/
theorem hcond2 : ∀ t : Fin cfg0.N, cond2 (grid0.coords t) ↔ t.val / 16 % 16 ≤ t.val % 16 :=
  (by decide +kernel : ∀ t : Fin grid0.N, cond2 (grid0.coords t) ↔ t.val / 16 % 16 ≤ t.val % 16)

/-- Both grid coordinates are fifteen. -/
abbrev cond3 (i : grid0.Coords) : Prop := k0_cond3 i = 1#1
/-- It holds at the last point only. -/
theorem hcond3 : ∀ t : Fin cfg0.N, cond3 (grid0.coords t) ↔ t.val = 255 :=
  (by decide +kernel : ∀ t : Fin grid0.N, cond3 (grid0.coords t) ↔ t.val = 255)

/-- The grid coordinates of point `t`: tile row t / 16, tile column t % 16. -/
theorem coords_val : ∀ t : Fin cfg0.N, ((grid0.coords t) 0).val = t.val / 16 % 16 ∧ ((grid0.coords t) 1).val = t.val % 16 :=
  (by decide +kernel : ∀ t : Fin grid0.N, ((grid0.coords t) 0).val = t.val / 16 % 16 ∧ ((grid0.coords t) 1).val = t.val % 16)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the body stores nothing into the output block and the pipeline does not write it back. -/
theorem idleAt0_2 : ∀ t : Fin cfg0.N, ¬cond3 (grid0.coords t) → cfg0.idle 2 (grid0.coords t) = true := by decide +kernel
theorem noFlush0_2 : ∀ t : Fin cfg0.N, ¬cond3 (grid0.coords t) → (cfg0.win 2).flush t = false := by decide +kernel
/-- At the last point the output block is live. -/
theorem liveAt0_2 : ∀ t : Fin cfg0.N, cond3 (grid0.coords t) → cfg0.idle 2 (grid0.coords t) = false := by decide +kernel

/-! ## The memrefs the body is called with -/

abbrev ms0_0 (t : Fin cfg0.N) : Memref sig .tc .vmem S512x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch cell: a whole scoped buffer of the kernel's own, passed beside the windows. -/
abbrev scM : Memref sig .tc .vmem S1x1 .f32 := Memref.whole cc0_scratch0

/-- The class invariant with the scratch cell as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The tiles the accumulator's recursion reads at step `n`: the two input windows' blocks at point n (mod 256). -/
def tile0 (c : Dev nD) (n : ℕ) : Vec F S512x64 .f32 := iblk m c 0 ⟨n % 256, lt_of_lt_of_eq (Nat.mod_lt _ (by decide)) N_0.symm⟩
def tile1 (c : Dev nD) (n : ℕ) : Vec F S512x64 .f32 := iblk m c 1 ⟨n % 256, lt_of_lt_of_eq (Nat.mod_lt _ (by decide)) N_0.symm⟩

end Cert.KernelIdeal.Hand

end
-- ==== Proof.KI.Runs.lean ====
/-
  The kernel's body run once per case of its three conditions, on any whole staging memrefs, at every float instance.

  Four cases occur on the grid.  At the first point the body zeroes the scratch cell, reads it back, adds the tile sum
  and stores the cell.  On or above the diagonal elsewhere it reads the cell as the point before left it, adds the tile
  sum and stores it.  Below the diagonal it touches nothing.  At the last point it updates the cell as above, reads
  it once more, divides by the pair count and stores the quotient into the output block.  In each case the input
  tiles are handed back as found; an output block the case does not store into is handed back untouched; what the
  stores leave in the cell and in the output block is recorded as the list of stored pieces, last store first.
-/
import proofs.«150324_j206158430576_1_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The first point: both coordinates zero, so on the diagonal, and not the last point. -/
noncomputable def kernelRun_A (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole) (hc1 : cond1 i) (hc2 : cond2 i) (hc3 : ¬cond3 i)
    (x0 x1 : Vec F S512x64 .f32) :
    { LS : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__kernel i arg2 harg2 arg3 harg3 arg4 harg4 arg5 harg5) K } := by
  refine ⟨?_, fun xi2 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- On or above the diagonal, neither the first nor the last point: the cell holds `xs`, what the point before left. -/
noncomputable def kernelRun_B (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole) (hc1 : ¬cond1 i) (hc2 : cond2 i) (hc3 : ¬cond3 i)
    (x0 x1 : Vec F S512x64 .f32) (xs : Vec F S1x1 .f32) :
    { LS : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__kernel i arg2 harg2 arg3 harg3 arg4 harg4 arg5 harg5) K } := by
  refine ⟨?_, fun xi2 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- Below the diagonal: the body loads and stores nothing; everything is handed back as found. -/
theorem kernelRun_C (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole) (hc1 : ¬cond1 i) (hc2 : ¬cond2 i) (hc3 : ¬cond3 i)
    (x0 x1 : Vec F S512x64 .f32) (xi2 xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs
        ∗ (iprop(owns (c : Thread nD τ) arg2 fullShare x0 ∗ owns (c : Thread nD τ) arg3 fullShare x1 ∗ owns (c : Thread nD τ) arg4 fullShare xi2 ∗ owns (c : Thread nD τ) arg5 fullShare xs) -∗ K ⟨⟩))
      ⊢ wp frame (wpE (defs₀ (F := F)) Variants.none c none) E (cc0__kernel i arg2 harg2 arg3 harg3 arg4 harg4 arg5 harg5) K := by
  simp only [cc0__kernel_eq_skeleton]; unfold cc0__kernel_skel
  iintro ⟨H0, H1, H2, HS, Hk⟩
  sl_exec (disch := first | exact hc1 | exact hc2 | exact hc3)
  sl_step
  iapply Hk
  isplitl [H0]; · iexact H0
  isplitl [H1]; · iexact H1
  isplitl [H2]; · iexact H2
  iexact HS

set_option maxHeartbeats 1000000 in
/-- The last point: on the diagonal; the cell is updated, read back, divided and stored into the output block. -/
noncomputable def kernelRun_D (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole) (hc1 : ¬cond1 i) (hc2 : cond2 i) (hc3 : cond3 i)
    (x0 x1 : Vec F S512x64 .f32) (xs : Vec F S1x1 .f32) :
    Σ' (L2 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__kernel i arg2 harg2 arg3 harg3 arg4 harg4 arg5 harg5) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Hand

end
-- ==== Proof.KI.Data.lean ====
/-
  The proof data of the kernel's one pipeline and its body obligation, at every float instance.

  What each case's stores leave: the first point leaves the cell at zero plus the tile sum, a later point on or above
  the diagonal at the cell's earlier contents plus the tile sum, a point below the diagonal leaves it alone, and the
  last point also leaves the cell over the pair count in the output block.  Read along the grid these are the
  accumulator's recursion (`accAt`), so the region's invariant before point n + 1 is: the scratch cell holds the
  accumulator after point n.  The two input windows hold their blocks at every point; the output window's block is
  consulted at the last point only, where it holds the final quotient.  The two input windows read ONE array, which
  they hold by halves.
-/
import proofs.«150324_j206158430576_1_alg».proof.Proof.KI.Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole-block access, however spelt. -/
theorem hz2 : (![0, 0] : Fin 2 → Nat) = fun _ => 0 := by funext a; match a with | ⟨0, _⟩ => rfl | ⟨1, _⟩ => rfl

/-! ## What each case leaves -/

/-- The first point's two stores into the cell cover it. -/
theorem scover_A (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole) (hc1 : cond1 i) (hc2 : cond2 i) (hc3 : ¬cond3 i) (x0 x1 : Vec F S512x64 .f32) (y : S1x1.Idx) :
    ∃ pc ∈ (kernelRun_A c i arg2 harg2 arg3 harg3 arg4 harg4 arg5 harg5 hc1 hc2 hc3 x0 x1).1, y ∈ pc.1.set :=
  View.cover_of_tiledL (kernelRun_A c i arg2 harg2 arg3 harg3 arg4 harg4 arg5 harg5 hc1 hc2 hc3 x0 x1).1 S1x1.size (by sl_kernel_rfl) y

/-- The first point leaves the cell at zero plus the tile sum. -/
theorem canon_A (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole) (hc1 : cond1 i) (hc2 : cond2 i) (hc3 : ¬cond3 i) (x0 x1 : Vec F S512x64 .f32) :
    View.canon (kernelRun_A c i arg2 harg2 arg3 harg3 arg4 harg4 arg5 harg5 hc1 hc2 hc3 x0 x1).1 = k0_pay2 (k0_pay1 (F := F)) (k0_pay4 (BitVec.ofNat 32 (i 0).val) (BitVec.ofNat 32 (i 1).val) x0 x1) := by
  unfold kernelRun_A; dsimp only; sl_unfold_words
  rw [View.canon_cons_unit_zero (S := S1x1) hz2]
  simp only [View.readAt_eq_ld, harg2.read_unread, harg3.read_unread, harg5.read_unread, View.readCov_unit_zero (S := S1x1) _ hz2, View.ld_unit_zero (S := S1x1) hz2, View.ld_unit_zero (S := S512x64) hz2]

theorem scover_B (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole) (hc1 : ¬cond1 i) (hc2 : cond2 i) (hc3 : ¬cond3 i) (x0 x1 : Vec F S512x64 .f32) (xs : Vec F S1x1 .f32) (y : S1x1.Idx) :
    ∃ pc ∈ (kernelRun_B c i arg2 harg2 arg3 harg3 arg4 harg4 arg5 harg5 hc1 hc2 hc3 x0 x1 xs).1, y ∈ pc.1.set :=
  View.cover_of_tiledL (kernelRun_B c i arg2 harg2 arg3 harg3 arg4 harg4 arg5 harg5 hc1 hc2 hc3 x0 x1 xs).1 S1x1.size (by sl_kernel_rfl) y

/-- A later point on or above the diagonal leaves the cell at its earlier contents plus the tile sum. -/
theorem canon_B (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole) (hc1 : ¬cond1 i) (hc2 : cond2 i) (hc3 : ¬cond3 i) (x0 x1 : Vec F S512x64 .f32) (xs : Vec F S1x1 .f32) :
    View.canon (kernelRun_B c i arg2 harg2 arg3 harg3 arg4 harg4 arg5 harg5 hc1 hc2 hc3 x0 x1 xs).1 = k0_pay2 xs (k0_pay4 (BitVec.ofNat 32 (i 0).val) (BitVec.ofNat 32 (i 1).val) x0 x1) := by
  unfold kernelRun_B; dsimp only; sl_unfold_words
  rw [View.canon_unit_zero (S := S1x1) hz2]
  simp only [View.readAt_eq_ld, harg2.read_unread, harg3.read_unread, harg5.read_unread, View.readCov_unit_zero (S := S1x1) _ hz2, View.ld_unit_zero (S := S1x1) hz2, View.ld_unit_zero (S := S512x64) hz2]

theorem cover_D (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole) (hc1 : ¬cond1 i) (hc2 : cond2 i) (hc3 : cond3 i) (x0 x1 : Vec F S512x64 .f32) (xs : Vec F S1x1 .f32) (y : S1x1.Idx) :
    ∃ pc ∈ (kernelRun_D c i arg2 harg2 arg3 harg3 arg4 harg4 arg5 harg5 hc1 hc2 hc3 x0 x1 xs).1, y ∈ pc.1.set :=
  View.cover_of_tiledL (kernelRun_D c i arg2 harg2 arg3 harg3 arg4 harg4 arg5 harg5 hc1 hc2 hc3 x0 x1 xs).1 S1x1.size (by sl_kernel_rfl) y

theorem scover_D (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole) (hc1 : ¬cond1 i) (hc2 : cond2 i) (hc3 : cond3 i) (x0 x1 : Vec F S512x64 .f32) (xs : Vec F S1x1 .f32) (y : S1x1.Idx) :
    ∃ pc ∈ (kernelRun_D c i arg2 harg2 arg3 harg3 arg4 harg4 arg5 harg5 hc1 hc2 hc3 x0 x1 xs).2.1, y ∈ pc.1.set :=
  View.cover_of_tiledL (kernelRun_D c i arg2 harg2 arg3 harg3 arg4 harg4 arg5 harg5 hc1 hc2 hc3 x0 x1 xs).2.1 S1x1.size (by sl_kernel_rfl) y

/-- The last point leaves the updated cell over the pair count in the output block, -/
theorem canon_D_out (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole) (hc1 : ¬cond1 i) (hc2 : cond2 i) (hc3 : cond3 i) (x0 x1 : Vec F S512x64 .f32) (xs : Vec F S1x1 .f32) :
    View.canon (kernelRun_D c i arg2 harg2 arg3 harg3 arg4 harg4 arg5 harg5 hc1 hc2 hc3 x0 x1 xs).1 = k0_pay3 (k0_pay2 xs (k0_pay4 (BitVec.ofNat 32 (i 0).val) (BitVec.ofNat 32 (i 1).val) x0 x1)) := by
  unfold kernelRun_D; dsimp only; sl_unfold_words
  rw [View.canon_unit_zero (S := S1x1) hz2]
  simp only [View.readAt_eq_ld, harg2.read_unread, harg3.read_unread, harg5.read_unread, View.readCov_unit_zero (S := S1x1) _ hz2, View.ld_unit_zero (S := S1x1) hz2, View.ld_unit_zero (S := S512x64) hz2]

/-- and the updated cell in the cell. -/
theorem canon_D_acc (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S1x1 .f32) (harg4 : arg4.IsWhole) (arg5 : Memref sig .tc .vmem S1x1 .f32) (harg5 : arg5.IsWhole) (hc1 : ¬cond1 i) (hc2 : cond2 i) (hc3 : cond3 i) (x0 x1 : Vec F S512x64 .f32) (xs : Vec F S1x1 .f32) :
    View.canon (kernelRun_D c i arg2 harg2 arg3 harg3 arg4 harg4 arg5 harg5 hc1 hc2 hc3 x0 x1 xs).2.1 = k0_pay2 xs (k0_pay4 (BitVec.ofNat 32 (i 0).val) (BitVec.ofNat 32 (i 1).val) x0 x1) := by
  unfold kernelRun_D; dsimp only; sl_unfold_words
  rw [View.canon_unit_zero (S := S1x1) hz2]
  simp only [View.readAt_eq_ld, harg2.read_unread, harg3.read_unread, harg5.read_unread, View.readCov_unit_zero (S := S1x1) _ hz2, View.ld_unit_zero (S := S1x1) hz2, View.ld_unit_zero (S := S512x64) hz2]

/-! ## The accumulator along the grid -/

/-- The scratch cell after point `n` on core `c`. -/
def accT (c : Dev nD) (n : ℕ) : Vec F S1x1 .f32 := accAt (tile0 m c) (tile1 m c) n

theorem tile0_eq (c : Dev nD) (t : Fin cfg0.N) : tile0 m c t.val = iblk m c 0 t := by
  have h : (⟨t.val % 256, lt_of_lt_of_eq (Nat.mod_lt _ (by decide)) N_0.symm⟩ : Fin cfg0.N) = t :=
    Fin.ext (Nat.mod_eq_of_lt (lt_of_lt_of_eq t.isLt N_0))
  unfold tile0; rw [h]

theorem tile1_eq (c : Dev nD) (t : Fin cfg0.N) : tile1 m c t.val = iblk m c 1 t := by
  have h : (⟨t.val % 256, lt_of_lt_of_eq (Nat.mod_lt _ (by decide)) N_0.symm⟩ : Fin cfg0.N) = t :=
    Fin.ext (Nat.mod_eq_of_lt (lt_of_lt_of_eq t.isLt N_0))
  unfold tile1; rw [h]

/-- At the first point the cell is zero plus the first tile's sum. -/
theorem accT_first (c : Dev nD) (t : Fin cfg0.N) (h : t.val = 0) :
    accT m c t.val = k0_pay2 (k0_pay1 (F := F)) (k0_pay4 (BitVec.ofNat 32 ((grid0.coords t) 0).val) (BitVec.ofNat 32 ((grid0.coords t) 1).val) (iblk m c 0 t) (iblk m c 1 t)) := by
  rw [(coords_val t).1, (coords_val t).2, ← tile0_eq m c t, ← tile1_eq m c t, h]
  rfl

/-- At a later point on or above the diagonal it is the cell before plus the point's tile sum. -/
theorem accT_step (c : Dev nD) (t : Fin cfg0.N) (h0 : t.val ≠ 0) (h2 : t.val / 16 % 16 ≤ t.val % 16) :
    accT m c t.val = k0_pay2 (accT m c (t.val - 1)) (k0_pay4 (BitVec.ofNat 32 ((grid0.coords t) 0).val) (BitVec.ofNat 32 ((grid0.coords t) 1).val) (iblk m c 0 t) (iblk m c 1 t)) := by
  rw [(coords_val t).1, (coords_val t).2, ← tile0_eq m c t, ← tile1_eq m c t]
  obtain ⟨n, hn⟩ := t
  cases n with
  | zero => exact absurd rfl h0
  | succ n => exact if_pos h2

/-- At a point below the diagonal it is the cell before. -/
theorem accT_skip (c : Dev nD) (t : Fin cfg0.N) (h0 : t.val ≠ 0) (h2 : ¬t.val / 16 % 16 ≤ t.val % 16) :
    accT m c t.val = accT m c (t.val - 1) := by
  obtain ⟨n, hn⟩ := t
  cases n with
  | zero => exact absurd rfl h0
  | succ n => exact if_neg h2

/-! ## The region's invariant and the proof data -/

/-- Before the first point the class's invariant (the cell at anything); before point n + 1 the cell at the
    accumulator after point n, and the generator register at some state. -/
def PhiS (c : Dev nD) : (n : ℕ) → n ≤ cfg0.N → sProp 𝕄
  | 0, _ => Pipeline.ΦA spec0 c
  | n + 1, _ => iprop(iprop(owns (c : Thread nD τ) scM fullShare (accT m c n)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accT m c n)) ∗ (∃ r, prngReg c r)) := rfl

theorem PhiS_pos (c : Dev nD) (n : ℕ) (h : n ≤ cfg0.N) (hz : n ≠ 0) :
    PhiS m c n h = iprop(iprop(owns (c : Thread nD τ) scM fullShare (accT m c (n - 1))) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outFinal (tile0 m c) (tile1 m c)
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outFinal (tile0 m c) (tile1 m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The final quotient is the last point's output store. -/
theorem outFinal_last (c : Dev nD) (t : Fin cfg0.N) (h : t.val = 255) :
    outFinal (tile0 m c) (tile1 m c) = k0_pay3 (accT m c t.val) := by
  unfold outFinal accT; rw [h]

end Cert.KernelIdeal.Hand

end
-- ==== Proof.KI.Body.lean ====
/-
  The body obligation of the kernel's pipeline, at every float instance: at each grid point the closed forms of the
  three conditions say which case the point is in, that case's run applies to the point's staging memrefs, and what
  its stores leave in the scratch cell is the accumulator after the point.
-/
import proofs.«150324_j206158430576_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  by_cases h3 : t.val = 255
  · -- the last point: on the diagonal, the output block stored
    have hc3 : cond3 (grid0.coords t) := (hcond3 t).mpr h3
    have hz : t.val ≠ 0 := by omega
    have hc1 : ¬cond1 (grid0.coords t) := fun h => hz ((hcond1 t).mp h)
    have h2 : t.val / 16 % 16 ≤ t.val % 16 := by omega
    have hc2 : cond2 (grid0.coords t) := (hcond2 t).mpr h2
    rw [show (dats m 0 c).leavesExact 2 t = owns (c : Thread nD τ) (ms0_2 t) fullShare ((dats m 0 c).after 2 t) from by
      unfold Dat.leavesExact; rw [liveAt0_2 t hc3], after0_2]
    rw [PhiS_castSucc m c t, PhiS_pos m c _ _ hz]
    iintro ⟨⟨HS, Hg⟩, Ho, ⟨%d0, H0⟩, ⟨%d1, H1⟩, ⟨%d2, H2⟩⟩
    iapply ((kernelRun_D c (grid0.coords t) _ _ _ _ _ _ _ _ hc1 hc2 hc3 (iblk m c 0 t) (iblk m c 1 t) (accT m c (t.val - 1))).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hg]
    · isplitl [HS]
      · unfold owns; iexists _; isplitr
        swap; · iexact HS
        ipureintro
        exact (View.read_writes_eq_canon _ _ _ (scover_D c _ _ _ _ _ _ _ _ _ hc1 hc2 hc3 _ _ _)).trans ((canon_D_acc c _ _ _ _ _ _ _ _ _ hc1 hc2 hc3 _ _ _).trans (accT_step m c t hz h2).symm)
      iexact Hg
    isplitl [Ho]; · iexact Ho
    isplitl [H0]; · iexact H0
    isplitl [H1]; · iexact H1
    unfold owns; iexists _; isplitr
    swap; · iexact H2
    ipureintro
    exact (View.read_writes_eq_canon _ _ _ (cover_D c _ _ _ _ _ _ _ _ _ hc1 hc2 hc3 _ _ _)).trans ((canon_D_out c _ _ _ _ _ _ _ _ _ hc1 hc2 hc3 _ _ _).trans
      (by rw [outFinal_last m c t h3, accT_step m c t hz h2]))
  · have hc3 : ¬cond3 (grid0.coords t) := fun h => h3 ((hcond3 t).mp h)
    rw [Dat.leavesExact_idle (dats m 0 c) 2 t (idleAt0_2 t hc3) (noFlush0_2 t hc3)]
    by_cases hz : t.val = 0
    · -- the first point: the cell zeroed, then the first tile's sum added
      have hc1 : cond1 (grid0.coords t) := (hcond1 t).mpr hz
      have hc2 : cond2 (grid0.coords t) := (hcond2 t).mpr (by omega)
      rw [PhiS_castSucc m c t, PhiS_zero m c _ _ hz, PhiA0_eq]
      iintro ⟨⟨HS, Hg⟩, Ho, ⟨%d0, H0⟩, ⟨%d1, H1⟩, ⟨%d2, H2⟩⟩
      iapply ((kernelRun_A c (grid0.coords t) _ _ _ _ _ _ _ _ hc1 hc2 hc3 (iblk m c 0 t) (iblk m c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro
          exact (View.read_writes_eq_canon _ _ _ (scover_A c _ _ _ _ _ _ _ _ _ hc1 hc2 hc3 _ _)).trans ((canon_A c _ _ _ _ _ _ _ _ _ hc1 hc2 hc3 _ _).trans (accT_first m c t hz).symm)
        iexact Hg
      isplitl [Ho]; · iexact Ho
      isplitl [H0]; · iexact H0
      isplitl [H1]; · iexact H1
      iexists _; iexact H2
    · have hc1 : ¬cond1 (grid0.coords t) := fun h => hz ((hcond1 t).mp h)
      rw [PhiS_castSucc m c t, PhiS_pos m c _ _ hz]
      by_cases h2 : t.val / 16 % 16 ≤ t.val % 16
      · -- on or above the diagonal: the tile's sum added to what the point before left
        have hc2 : cond2 (grid0.coords t) := (hcond2 t).mpr h2
        iintro ⟨⟨HS, Hg⟩, Ho, ⟨%d0, H0⟩, ⟨%d1, H1⟩, ⟨%d2, H2⟩⟩
        iapply ((kernelRun_B c (grid0.coords t) _ _ _ _ _ _ _ _ hc1 hc2 hc3 (iblk m c 0 t) (iblk m c 1 t) (accT m c (t.val - 1))).2 _ Set.univ _)
        isplitl [H0]; · iexact H0
        isplitl [H1]; · iexact H1
        isplitl [H2]; · iexact H2
        isplitl [HS]; · iexact HS
        iintro ⟨H0, H1, H2, ⟨%es, HS⟩⟩
        isplitl [HS Hg]
        · isplitl [HS]
          · unfold owns; iexists _; isplitr
            swap; · iexact HS
            ipureintro
            exact (View.read_writes_eq_canon _ _ _ (scover_B c _ _ _ _ _ _ _ _ _ hc1 hc2 hc3 _ _ _)).trans ((canon_B c _ _ _ _ _ _ _ _ _ hc1 hc2 hc3 _ _ _).trans (accT_step m c t hz h2).symm)
          iexact Hg
        isplitl [Ho]; · iexact Ho
        isplitl [H0]; · iexact H0
        isplitl [H1]; · iexact H1
        iexists _; iexact H2
      · -- below the diagonal: nothing touched
        have hc2 : ¬cond2 (grid0.coords t) := fun h => h2 ((hcond2 t).mp h)
        rw [accT_skip m c t hz h2]
        iintro ⟨⟨HS, Hg⟩, Ho, ⟨%d0, H0⟩, ⟨%d1, H1⟩, ⟨%d2, H2⟩⟩
        iapply (kernelRun_C c (grid0.coords t) _ _ _ _ _ _ _ _ hc1 hc2 hc3 (iblk m c 0 t) (iblk m c 1 t) _ (accT m c (t.val - 1)) Set.univ _)
        isplitl [H0]; · iexact H0
        isplitl [H1]; · iexact H1
        isplitl [H2]; · iexact H2
        isplitl [HS]; · iexact HS
        iintro ⟨H0, H1, H2, HS⟩
        isplitl [HS Hg]
        · isplitl [HS]; · iexact HS
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the cell's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), PhiA0_eq]
  iintro ⟨HS, Hg⟩
  isplitl [HS]
  · iexists _; iexact HS
  iexact Hg

end Cert.KernelIdeal.Hand

end
-- ==== Proof.KI.Final.lean ====
/-
  What the pipeline's arrays hold after the last write-back, at every float instance.

  The output window's one block is the whole 1 × 1 array and is written back once, at the last grid point, holding the
  final quotient; so the array ends at the final quotient.  The input windows' array is never written.
-/
import proofs.«150324_j206158430576_1_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A 1 × 1 array has one index. -/
instance subsingleton_S1x1 : Subsingleton S1x1.Idx :=
  ⟨fun a b => funext fun d => Fin.ext (by
    match d with
    | ⟨0, h⟩ => have ha : (a ⟨0, h⟩).val < 1 := (a ⟨0, h⟩).isLt; have hb : (b ⟨0, h⟩).val < 1 := (b ⟨0, h⟩).isLt; omega
    | ⟨1, h⟩ => have ha : (a ⟨1, h⟩).val < 1 := (a ⟨1, h⟩).isLt; have hb : (b ⟨1, h⟩).val < 1 := (b ⟨1, h⟩).isLt; omega)⟩

/-- What a point writes back of the output window is the block of the constant array at the final quotient. -/
theorem flushed2_eq (c : Dev nD) (t : Fin cfg0.N) :
    (dats m 0 c).flushed 2 t = ((cfg0.win 2).blk t).view.read (Elt F) (outFinal (tile0 m c) (tile1 m c) : S1x1.Idx → Elt F .f32) := by
  show (cfg0.win 2).cut (grid0.coords t) ((dats m 0 c).after 2 t) = _
  rw [after0_2]
  funext j
  show outFinal (tile0 m c) (tile1 m c) j = outFinal (tile0 m c) (tile1 m c) (((cfg0.win 2).blk t).view.emb j)
  exact congrArg (outFinal (tile0 m c) (tile1 m c)) (Subsingleton.elim (α := S1x1.Idx) j (((cfg0.win 2).blk t).view.emb j))

/-- The last point's block of the output window is the whole array. -/
theorem cover2 (i : S1x1.Idx) : ∃ t : Fin cfg0.N, (cfg0.win 2).flush t = true ∧ i ∈ ((cfg0.win 2).blk t).view.set := by
  have hlast : 255 < cfg0.N := lt_of_lt_of_eq (by decide : 255 < 256) N_0.symm
  refine ⟨⟨255, hlast⟩, (flush0_2 ⟨255, hlast⟩).mpr rfl, ?_⟩
  show i ∈ ((View.whole main_v0).slice (win0_2.rect ⟨255, hlast⟩)).set
  rw [View.set_slice_whole, Rect.mem_set_unit]
  intro a
  match a with
  | ⟨0, h⟩ => have hi : (i ⟨0, h⟩).val < 1 := (i ⟨0, h⟩).isLt; exact ⟨by show 0 * 1 ≤ _; omega, by show _ < 0 * 1 + 1; omega⟩
  | ⟨1, h⟩ => have hi : (i ⟨1, h⟩).val < 1 := (i ⟨1, h⟩).isLt; exact ⟨by show 0 * 1 ≤ _; omega, by show _ < 0 * 1 + 1; omega⟩

/-- The output array after the run: the final quotient. -/
theorem final2 (c : Dev nD) : (dats m 0 c).arrAt 2 cfg0.N = (outFinal (tile0 m c) (tile1 m c) : S1x1.Idx → Elt F .f32) :=
  (dats m 0 c).arrAt_eq_of_cover 2 _ (fun t _ => flushed2_eq m c t) cover2

/-- The input array after the run: as the region found it. -/
theorem final0 (c : Dev nD) : (dats m 0 c).arrAt 0 cfg0.N = m ((c : Thread nD τ).loc main_arg0) :=
  ((dats m 0 c).arrAt_in 0 rfl _).trans (A_eq m c 0)

end Cert.KernelIdeal.Hand

end
-- ==== Proof.KI.Launch.lean ====
/-
  The launch of the program: one pallas_call whose two input windows read ONE array, continued by a reshape of its
  1 x 1 result to a scalar, for every float instance.

  The array read by two windows is dealt between them by halving its full share; the output array is held whole.
  After the region the reshape runs holding the output array and the scalar's buffer, and hands both back: the
  output array unchanged, the scalar at the row-major reshape of the output array's final contents.
-/
import proofs.«150324_j206158430576_1_alg».proof.Proof.Gen.KernelIdeal.Launch
import proofs.«150324_j206158430576_1_alg».proof.Proof.Gen.KernelIdeal.Skeleton
import proofs.«150324_j206158430576_1_alg».proof.Proof.Gen.KernelIdeal.Points
import Idealize.ShloMosaic.Lib.Pipeline.FrameSuffix
import Idealize.ShloMosaic.Lib.StableHlo.Run
import Idealize.ShloMosaic.Lib.Tactic

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The array the two input windows read, whole at the full share, dealt between them in halves, and the output array
    whole: the buffers behind the windows' arrays at the launch contents are the proof data's arrays at entry. -/
theorem arrays_deal
    (dats : (p : Fin 1) → (c : Dev nD) → Pipeline.Dat τ (Elt F) Unit ℕ (UR sig nD τ) ℕ (cfgs p) c)
    (m : (ℓ : Loc nD τ sig) → Buf (Elt F) ℓ) (c : Dev nD)
    (hA : ∀ w, (dats 0 c).A w = m ((c : Thread nD τ).loc (Pipeline.arrRef spec0 w)))
    (hq0 : (dats 0 c).q 0 = fullShare.left) (hq1 : (dats 0 c).q 1 = fullShare.right) :
    (Pipeline.arrBufs spec0 c (fun b => m ((c : Thread nD τ).loc b)) : sProp 𝕄)
      ⊢ (dats 0 c).arrays ((dats 0 c).arrAt · 0) := by
  have hs0 : (dats 0 c).share 0 = fullShare.left := by
    unfold Dat.share; exact (if_neg Bool.false_ne_true).trans hq0
  have hs1 : (dats 0 c).share 1 = fullShare.right := by
    unfold Dat.share; exact (if_neg Bool.false_ne_true).trans hq1
  have hs2 : (dats 0 c).share 2 = fullShare := by
    unfold Dat.share; exact if_pos rfl
  unfold Pipeline.arrBufs Dat.arrays
  rw [bigSep_W0, show Finset.univ.image (Pipeline.arrRef spec0) = {main_arg0, main_v0} from by decide,
    bigSep_insert (by decide), bigSep_singleton]
  rw [hs0, hs1, hs2, (arr_whole0 0).set_eq_univ, (arr_whole0 2).set_eq_univ]
  have e0 : (dats 0 c).arrAt 0 0 = m ((c.tc : Thread nD τ).loc main_arg0) := hA 0
  have e1 : (dats 0 c).arrAt 1 0 = m ((c.tc : Thread nD τ).loc main_arg0) := hA 1
  have e2 : (dats 0 c).arrAt 2 0 = m ((c.tc : Thread nD τ).loc main_v0) := hA 2
  show iprop((((c.tc : Thread nD τ).loc main_arg0) ↦{fullShare} m ((c.tc : Thread nD τ).loc main_arg0))
        ∗ (((c.tc : Thread nD τ).loc main_v0) ↦{fullShare} m ((c.tc : Thread nD τ).loc main_v0)))
      ⊢ (iprop((((c.tc : Thread nD τ).loc main_arg0) ↦{fullShare.left} (dats 0 c).arrAt 0 0)
        ∗ (((c.tc : Thread nD τ).loc main_arg0) ↦{fullShare.right} (dats 0 c).arrAt 1 0)
        ∗ (((c.tc : Thread nD τ).loc main_v0) ↦{fullShare} (dats 0 c).arrAt 2 0)) : sProp 𝕄)
  rw [e0, e1, e2]
  iintro ⟨Ha, Hv⟩
  ihave H := (pointsTo_share (PosShare.mem_left_op_right fullShare)).mp $$ Ha
  icases H with ⟨Hl, Hr⟩
  isplitl [Hl]; · iexact Hl
  isplitl [Hr]; · iexact Hr
  iexact Hv

/-- The contents the scalar's buffer ends at on core `c`: the row-major reshape of the output array's final contents. -/
abbrev scalarOf (dats : (p : Fin 1) → (c : Dev nD) → Pipeline.Dat τ (Elt F) Unit ℕ (UR sig nD τ) ℕ (cfgs p) c) (c : Dev nD) :
    Buf (Elt F) ((c.tc : Thread nD τ).loc main_v1) :=
  fun i => shapeCast S_ ((dats 0 c).arrAt 2 cfg0.N) Facts₀.shapeCasts_S1x1_S_ i

set_option backward.isDefEq.respectTransparency.types false in
/-- After the region: holding the boundary, the arrays at their final contents and the scalar's buffer at its launch
    contents, the reshape runs on the output array and the scalar's buffer — it reads the first and writes the second —
    and the return hands back the arrays as they were and the scalar's buffer at the reshaped contents. The array the
    input windows read stays in its two halves throughout: the reshape does not name it. -/
theorem tail_reshape
    (dats : (p : Fin 1) → (c : Dev nD) → Pipeline.Dat τ (Elt F) Unit ℕ (UR sig nD τ) ℕ (cfgs p) c)
    (m : (ℓ : Loc nD τ sig) → Buf (Elt F) ℓ) (c : Dev nD) (Q' : PUnit → sProp 𝕄) :
    iprop((iprop((dats 0 c).arrays ((dats 0 c).arrAt · cfg0.N) ∗ (((c.tc : Thread nD τ).loc main_v1) ↦{fullShare} scalarOf dats c)) -∗ Q' ⟨⟩)
        ∗ boundary (c.tc : Thread nD τ) ∗ (dats 0 c).arrays ((dats 0 c).arrAt · cfg0.N)
        ∗ Pipeline.unscopedRest spec0 c (fun b => m ((c.tc : Thread nD τ).loc b)))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  classical
  -- the device's contents after the region, where the reshape looks: the output array at its final contents,
  -- every other buffer as launched
  let W : Valuation τ sig (Elt F) :=
    Function.update (fun b => m (c, b)) (Proc.devRef .tc main_v0) ((dats 0 c).arrAt 2 cfg0.N)
  let S : Finset (DevRef τ sig) := {Proc.devRef .tc main_v0, Proc.devRef .tc main_v1}
  have hne : (Proc.devRef .tc main_v1 : DevRef τ sig) ≠ Proc.devRef .tc main_v0 := StableHlo.devRef_ne_of_ne (by decide)
  have hW0 : W (Proc.devRef .tc main_v0) = (dats 0 c).arrAt 2 cfg0.N := Function.update_self ..
  have hW1 : W (Proc.devRef .tc main_v1) = m ((c.tc : Thread nD τ).loc main_v1) := Function.update_of_ne hne ..
  have hs2 : (dats 0 c).share 2 = fullShare := by unfold Dat.share; exact if_pos rfl
  have hheld : ∀ W' : Valuation τ sig (Elt F), (StableHlo.held (c.tc : Thread nD τ) S W' : sProp 𝕄)
      = iprop((((c.tc : Thread nD τ).loc main_v0) ↦{fullShare} W' (Proc.devRef .tc main_v0))
          ∗ (((c.tc : Thread nD τ).loc main_v1) ↦{fullShare} W' (Proc.devRef .tc main_v1))) := by
    intro W'
    unfold StableHlo.held
    rw [bigSep_insert (by rw [Finset.mem_singleton]; exact hne.symm), bigSep_singleton]
    rfl
  have hsub : ∀ op ∈ (hostOps1 : List (HloOp τ sig (Elt F))), op.bufs ⊆ S := by
    intro op hop
    simp only [hostOps1, List.mem_cons, List.mem_nil_iff, or_false] at hop
    subst hop
    exact subset_refl _
  have hfresh : ∀ op ∈ (hostOps1 : List (HloOp τ sig (Elt F))), op.fresh = ∅ := by
    intro op hop
    simp only [hostOps1, List.mem_cons, List.mem_nil_iff, or_false] at hop
    subst hop
    rfl
  have hr0 : StableHlo.after (hostOps1 (F := F)) W (Proc.devRef .tc main_v0) = (dats 0 c).arrAt 2 cfg0.N := by
    show (StableHlo.reshape main_v0 main_v1 rfl Facts₀.shapeCasts_S1x1_S_ : HloOp τ sig (Elt F)).result W (Proc.devRef .tc main_v0) = _
    rw [StableHlo.reshape_result_ne _ _ _ _ _ _ _ (by decide), hW0]
  have hr1 : StableHlo.after (hostOps1 (F := F)) W (Proc.devRef .tc main_v1) = scalarOf dats c := by
    show (StableHlo.reshape main_v0 main_v1 rfl Facts₀.shapeCasts_S1x1_S_ : HloOp τ sig (Elt F)).result W (Proc.devRef .tc main_v1) = _
    rw [StableHlo.reshape_result, hW0]
    rfl
  have hrun := StableHlo.wp_seq (Λ := Pipeline.Sig Λ₀ (Fin 1) fun p => ((cfgs p).toPCfg (Val := Elt F)).Adm)
    (defs := Pipeline.defs (fun q => (cfgs q).toPCfg (Val := Elt F)) defs₀) (Ix := Unit) (Name := ℕ) (U := UR sig nD τ) (Lvl := ℕ)
    (Variants.lift Variants.none) none Set.univ c S (fun _ => Pipeline.chain []) (K := Q') hostOps1 hsub hfresh W
  rw [hheld, hheld, hr0, hr1, hW0, hW1, Pipeline.chain_nil, wp_pure] at hrun
  unfold Dat.arrays
  rw [bigSep_W0, hs2, (arr_whole0 2).set_eq_univ, unscopedRest0_eq, Pipeline.chain_cons]
  iintro ⟨Hk, Hb, ⟨Ha, Hc, Hv⟩, Hz⟩
  iapply hrun $$ [Hb Hv Hz]
  · isplitl [Hb]; · iexact Hb
    isplitl [Hv]; · iexact Hv
    iexact Hz
  iintro ⟨Hb, Hv, Hz⟩
  imodintro
  iapply Hk
  isplitr [Hz]
  · isplitl [Ha]; · iexact Ha
    isplitl [Hc]; · iexact Hc
    iexact Hv
  · iexact Hz

set_option backward.isDefEq.respectTransparency.types false in
/-- The run of @main from any launch memory, at proof data whose two input windows hold the shared array in the two
    halves of the full share, that owe nothing, and whose invariant is entered from and left to the class invariant
    (the scratch at some contents, the generator register at some state): every weakly fair execution terminates, the
    scalar's buffer ends at the row-major reshape of the output window's final array, and the shared input array ends at
    the first window's final array. The generator register is routed into the invariant at entry and let go at exit. -/
theorem run_shared
    (dats : (p : Fin 1) → (c : Dev nD) → Pipeline.Dat τ (Elt F) Unit ℕ (UR sig nD τ) ℕ (cfgs p) c)
    (m : (ℓ : Loc nD τ sig) → Buf (Elt F) ℓ) (ρ : Dev nD → PrngReg)
    (hbody : ∀ c, Pipeline.BodyObligationLoose (dats 0 c) (defs₀ (F := F)) Variants.none () Set.univ)
    (hA : ∀ c w, (dats 0 c).A w = m ((c : Thread nD τ).loc (Pipeline.arrRef spec0 w)))
    (hq0 : ∀ c, (dats 0 c).q 0 = fullShare.left) (hq1 : ∀ c, (dats 0 c).q 1 = fullShare.right)
    (howed : ∀ c t, (dats 0 c).owed t = 0)
    (hin : ∀ c, Pipeline.ΦA spec0 c ⊢ (dats 0 c).Φ 0)
    (hout : ∀ c, (dats 0 c).Φ (Fin.last cfg0.N) ⊢ Pipeline.ΦA spec0 c) :
    θ_run (defs (F := F)) (onTc (τ := τ) (main (F := F))) (s₀ m ρ) (fun r => ∀ c : Dev nD,
      r.2.mem ((c.tc : Thread nD τ).loc main_v1) = (fun i => shapeCast S_ ((dats 0 c).arrAt 2 cfg0.N) Facts₀.shapeCasts_S1x1_S_ i)
      ∧ r.2.mem ((c.tc : Thread nD τ).loc main_arg0) = (dats 0 c).arrAt 0 cfg0.N) := by
  classical
  refine Pipeline.θ_run_region_pf_tail (fun q => (cfgs q).toPCfg (Val := Elt F)) (fun q => (cfgs q).toPCfg_adm) dats ()
    cellOf_inj (0 : Fin 1) winFacts₀0 (Pipeline.OwnSemFacts.none _) (Pipeline.PreFacts.none _) emb₁ defs₀ Variants.none m ρ main
    (fun _ => Pipeline.chain [StableHlo.seq hostOps1])
    hbody block_pos0 arr_whole0 stage_whole0 howed
    (fun _ => BI.emp) (initOf (Pipeline.cells (Pipeline.pin (fun q => (cfgs q).toPCfg (Val := Elt F)) fun q => (cfgs q).toPCfg_adm) cellOf_inj)
      (Pipeline.launchToks (Pipeline.pin (fun q => (cfgs q).toPCfg (Val := Elt F)) fun q => (cfgs q).toPCfg_adm) cellOf_inj)) ?hu
    (fun c b => m ((c : Thread nD τ).loc b)) ?hmain ?hsplit (fun _ k => k.elim0)
    (fun c => iprop(∃ r, prngReg c r)) (fun c => iprop(∃ r, prngReg c r))
    (fun c => Pipeline.unscopedRest spec0 c (fun b => m ((c : Thread nD τ).loc b)))
    (fun c => (((c.tc : Thread nD τ).loc main_v1) ↦{fullShare} scalarOf dats c : sProp 𝕄))
    ?hX ?hin ?hout ?htail
    (fun c s => s.mem ((c.tc : Thread nD τ).loc main_v1) = scalarOf dats c) ?hY ?hQ
  case hu =>
    rw [ownU_emb₁]
    iintro Hu; imodintro
    isplitl [Hu]; · iexact Hu
    rw [BI.bigSep_emp_const]; iempintro
  case hmain =>
    intro c Q
    exact Pipeline.hmain_around cfgs 0 defs₀ Variants.none m main [] [hostOps1] (by simp only [List.Forall])
      (by simp only [List.Forall]) main_chain c Q
  case hsplit => exact fun c => arrays_deal dats m c (hA c) (hq0 c) (hq1 c)
  case hX =>
    intro c
    rw [Pipeline.unscopedRestP_none]
    iintro ⟨HU, -, -, -, Hp, -⟩; imodintro
    isplitl [Hp]; · iexists _; iexact Hp
    iexact HU
  case hin =>
    intro c
    refine BIBase.Entails.trans ?_ (hin c)
    unfold Pipeline.ΦA
    iintro ⟨Hp, -, Hr⟩
    isplitl [Hr] <;> iassumption
  case hout =>
    intro c
    refine (hout c).trans ?_
    rw [Pipeline.ownSems0_none]; unfold Pipeline.ΦA
    iintro ⟨Hr, Hp⟩
    isplitl [Hp]; · iexact Hp
    isplitr; · iempintro
    iexact Hr
  case htail => exact fun c Q' => tail_reshape dats m c Q'
  case hY =>
    intro c s'
    iintro ⟨-, HZ, HSI⟩
    icombine HSI HZ gives %h
    imodintro
    isplitr; · ipureintro; exact Buf.eq_of_forall_mem_univ h
    iexact HSI
  case hQ =>
    intro s h c
    exact ⟨(h c).2.2, (h c).1 0⟩

end Cert.KernelIdeal.Hand

end
-- ==== Proof.KI.Run.lean ====
/-
  The program's run with its result named, at every float instance: every weakly fair execution of @main ends with
  the scalar result at the final quotient (the 1 × 1 output array reshaped) and the argument array unchanged.  The
  frame claim is this run with the result forgotten.
-/
import proofs.«150324_j206158430576_1_alg».proof.Proof.KI.Final
import proofs.«150324_j206158430576_1_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run: the result buffer at the reshaped final quotient, the argument as it was. -/
theorem run_main : θ_run (defs (F := F)) (onTc (τ := τ) (main (F := F))) ⟨m, fun _ => 0, ρ⟩ (fun r => ∀ c : Dev nD,
      r.2.mem ((c.tc : Thread nD τ).loc main_v1) = (fun i => shapeCast S_ (outFinal (tile0 m c) (tile1 m c) : S1x1.Idx → Elt F .f32) shapeCasts_S1x1_S_ i)
      ∧ r.2.mem ((c.tc : Thread nD τ).loc main_arg0) = m ((c.tc : Thread nD τ).loc main_arg0)) :=
  (θ_run defs _ _).mono (fun r h c => ⟨(h c).1.trans (by rw [final2 m c]), (h c).2.trans (final0 m c)⟩)
    (run_shared (dats m) m ρ (fun c => (body_obligation m c).loose) (A_eq m) (fun _ => rfl) (fun _ => rfl) (fun _ _ => rfl) (hin m) (hout m))

/-- The frame: the program runs to its end and leaves its argument array unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.KernelIdeal.Hand

end
-- ==== Proof.Spec.lean ====
/-
  The mathematics of the claim, over one array `X` of 8192 rows of 64 extended reals, with no program in sight.

  For two rows r, c the pair term is  exp(−√(max(‖X_r‖² + ‖X_c‖² − 2·⟨X_r, X_c⟩, 0)) · (1/10 as a float)),
  written with the same constants and in the same order of operations on both sides, and the result is the sum
  of the pair terms over r < c divided by the pair count 8192·8191/2 = 33550336 (an exact float).

  The reference sums the masked terms over the whole 8192 × 8192 square (`total`).  The kernel walks a 16 × 16
  grid of 512 × 512 tiles in row-major order, starts its accumulator from zero at the first tile, adds the masked
  tile sum (`tileSum`) at every tile on or above the diagonal (column tile ≥ row tile) and skips the tiles below it,
  which hold only pairs with r ≥ c (`accSpec`).  `accSpec_last` says the two sums agree: the skipped tiles are all
  zeros, and addition of extended reals is commutative and associative, so no finiteness is needed.
-/
import Idealize.ShloMosaic.PureOps.Ideal
import Idealize.ShloMosaic.Lib.ValueIdx

noncomputable section

open scoped BigOperators

namespace Cert.Diversity

open Idealize.ShloMosaic Idealize.ShloMosaic.ValueIdx

/-- The input array's shape: 8192 rows of 64. -/
abbrev SX : Shape := ⟨2, ![8192, 64]⟩

variable (X : SX.Idx → EReal)

/-- The squared norm of row `r`. -/
def sqn (r : Fin 8192) : EReal := ∑ k : Fin 64, X (ix2 r k) * X (ix2 r k)

/-- The inner product of rows `r` and `c`. -/
def dotp (r c : Fin 8192) : EReal := ∑ k : Fin 64, X (ix2 r k) * X (ix2 c k)

/-- The float 2. -/
def two : EReal := Ideal.ofBits .f32 0x40000000#32
/-- The float nearest 1/10. -/
def tenth : EReal := Ideal.ofBits .f32 0x3DCCCCCD#32
/-- The pair count 8192·8191/2 as a float (exact). -/
def npairs : EReal := Ideal.ofBits .f32 0x4BFFF800#32

/-- The squared distance of rows `r` and `c` through the Gram matrix, clamped at zero. -/
def sqdist (r c : Fin 8192) : EReal := max ((sqn X r + sqn X c) - two * dotp X r c) 0

/-- The pair term: exp(−dist · 1/10), the negation written as the difference from zero. -/
def pairTerm (r c : Fin 8192) : EReal := Ideal.exp ((0 - Ideal.sqrt (sqdist X r c)) * tenth)

/-- The pair term where r < c, zero elsewhere. -/
def masked (r c : Fin 8192) : EReal := if r.val < c.val then pairTerm X r c else 0

/-- The sum over the whole square of the masked terms. -/
def total : EReal := ∑ r : Fin 8192, ∑ c : Fin 8192, masked X r c

/-- The claim's value: the masked sum over the pair count. -/
def result : EReal := Ideal.div (total X) npairs

/-- Row `a` of tile row `i`: the array row 512·i + a. -/
def rowOf (i : Fin 16) (a : Fin 512) : Fin 8192 := ⟨512 * i.val + a.val, by have := i.isLt; have := a.isLt; omega⟩

/-- The masked sum over the tile (i, j): rows 512·i …, columns 512·j …. -/
def tileSum (i j : Fin 16) : EReal := ∑ a : Fin 512, ∑ b : Fin 512, masked X (rowOf i a) (rowOf j b)

/-- The tile row and tile column of the n-th grid point (row-major, 16 columns). -/
def gi (n : ℕ) : Fin 16 := ⟨n / 16 % 16, Nat.mod_lt _ (by decide)⟩
def gj (n : ℕ) : Fin 16 := ⟨n % 16, Nat.mod_lt _ (by decide)⟩

/-- The kernel's accumulator after grid point `n`: zero plus the first tile's sum, then one more tile's sum at each
    point whose column tile is not left of its row tile. -/
def accSpec : ℕ → EReal
  | 0 => 0 + tileSum X (gi 0) (gj 0)
  | n + 1 => if (gi (n + 1)).val ≤ (gj (n + 1)).val then accSpec n + tileSum X (gi (n + 1)) (gj (n + 1)) else accSpec n

/-- The accumulator in closed form: zero plus the tile sums of the grid points so far that lie on or above the
    diagonal. -/
theorem accSpec_eq_sum (n : ℕ) :
    accSpec X n = ∑ k ∈ Finset.range (n + 1),
      (if (gi k).val ≤ (gj k).val then tileSum X (gi k) (gj k) else 0) := by
  induction n with
  | zero =>
    have h : (gi 0).val ≤ (gj 0).val := by simp [gi, gj]
    rw [Finset.range_one, Finset.sum_singleton, if_pos h]
    simp only [accSpec, zero_add]
  | succ n ih =>
    rw [Finset.sum_range_succ, ← ih]
    by_cases h : (gi (n + 1)).val ≤ (gj (n + 1)).val
    · simp only [accSpec, if_pos h]
    · simp only [accSpec, if_neg h, add_zero]

/-- The 256 grid points are the pairs (tile row, tile column): k = 16·i + j. -/
def gridEquiv : Fin 16 × Fin 16 ≃ Fin 256 where
  toFun p := ⟨16 * p.1.val + p.2.val, by omega⟩
  invFun k := (⟨k.val / 16, by omega⟩, ⟨k.val % 16, by omega⟩)
  left_inv p := by
    apply Prod.ext <;> apply Fin.ext <;> simp only [] <;> omega
  right_inv k := by
    apply Fin.ext; simp only []; omega

/-- The 8192 rows are the pairs (tile row, row in the tile): r = 512·i + a. -/
def rowEquiv : Fin 16 × Fin 512 ≃ Fin 8192 where
  toFun p := rowOf p.1 p.2
  invFun r := (⟨r.val / 512, by omega⟩, ⟨r.val % 512, by omega⟩)
  left_inv p := by
    apply Prod.ext <;> apply Fin.ext <;> simp only [rowOf] <;> omega
  right_inv r := by
    apply Fin.ext; simp only [rowOf]; omega

theorem gi_grid (i j : Fin 16) : gi (16 * i.val + j.val) = i := by
  apply Fin.ext; simp only [gi]; omega

theorem gj_grid (i j : Fin 16) : gj (16 * i.val + j.val) = j := by
  apply Fin.ext; simp only [gj]; omega

/-- A sum over the 256 grid points is a double sum over tile rows and tile columns. -/
theorem sum_range_grid (f : ℕ → EReal) :
    ∑ k ∈ Finset.range 256, f k = ∑ i : Fin 16, ∑ j : Fin 16, f (16 * i.val + j.val) := by
  rw [← Fin.sum_univ_eq_sum_range, ← Fintype.sum_prod_type', ← Equiv.sum_comp gridEquiv]
  exact Finset.sum_congr rfl (fun _ _ => rfl)

/-- A tile strictly below the diagonal holds only pairs with r ≥ c, so its masked sum is zero. -/
theorem tileSum_below (i j : Fin 16) (h : j.val < i.val) : tileSum X i j = 0 := by
  unfold tileSum
  apply Finset.sum_eq_zero
  intro a _
  apply Finset.sum_eq_zero
  intro b _
  unfold masked
  apply if_neg
  simp only [rowOf]
  omega

/-- The sum over the whole square, tile by tile. -/
theorem total_eq_tiles : total X = ∑ i : Fin 16, ∑ j : Fin 16, tileSum X i j := by
  unfold total tileSum
  rw [← Equiv.sum_comp rowEquiv, Fintype.sum_prod_type]
  apply Finset.sum_congr rfl
  intro i _
  have h : ∀ a : Fin 512, ∑ c : Fin 8192, masked X (rowEquiv (i, a)) c
      = ∑ j : Fin 16, ∑ b : Fin 512, masked X (rowOf i a) (rowOf j b) := by
    intro a
    rw [← Equiv.sum_comp rowEquiv, Fintype.sum_prod_type]
    exact Finset.sum_congr rfl (fun _ _ => Finset.sum_congr rfl (fun _ _ => rfl))
  rw [Finset.sum_congr rfl (fun a _ => h a), Finset.sum_comm]

/-- After the last of the 256 grid points the accumulator is the sum over the whole square. -/
theorem accSpec_last : accSpec X 255 = total X := by
  rw [accSpec_eq_sum, sum_range_grid, total_eq_tiles]
  apply Finset.sum_congr rfl
  intro i _
  apply Finset.sum_congr rfl
  intro j _
  rw [gi_grid, gj_grid]
  by_cases h : i.val ≤ j.val
  · rw [if_pos h]
  · rw [if_neg h, tileSum_below X i j (by omega)]

end Cert.Diversity

end
-- ==== Proof.TileValue.lean ====
/-
  The kernel's arithmetic read at the ideal values, where floats are extended reals and every operation is exact.

  One grid point (i, j) of the kernel reads rows 512·i … of the array as its first tile and rows 512·j … as its
  second.  From the two tiles it forms, at each (a, b) of a 512 × 512 square, the squared norms of row a of the first
  tile and of row b of the second (sums over the 64 columns), their inner product (a matrix product into a zero
  accumulator), the clamped squared distance, its root, and exp(−root · 1/10); it keeps that number where the array
  row 512·i + a lies before the array row 512·j + b (a comparison of 32-bit words, none of which reaches 8192, so
  nothing wraps) and puts zero elsewhere; and it sums the square.  That sum is the specification's tile sum.  The
  accumulator's recursion over the 256 grid points then matches the specification's term by term, and the last point
  divides by the pair count.
-/
import proofs.«150324_j206158430576_1_alg».proof.Proof.Acc
import proofs.«150324_j206158430576_1_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.KernelIdeal.Hand

open Cert.KernelIdeal Cert.KernelIdeal.Gen Cert.Diversity Idealize.ShloMosaic Idealize.ShloMosaic.ValueIdx

/-! ## Three layout operations read at an index -/

section Layout
variable {α : Type}

/-- A vector `[a]` cast to the column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Root and exponential of a vector at an index, at the ideal values -/

theorem sqrt_apply {s : Shape} {φ : FTy} (x : FVec Ideal s φ) (i : s.Idx) : sqrt x i = Ideal.sqrt (x i) := rfl
theorem exp_apply {s : Shape} {φ : FTy} (x : FVec Ideal s φ) (i : s.Idx) : exp x i = Ideal.exp (x i) := rfl

/-! ## A tile's row norms -/

/-- The squared norms of a tile's 512 rows: the sum of squares along the 64 columns. -/
def rowSq (x : FVec Ideal S512x64 .f32) : FVec Ideal S512 .f32 :=
  multiReduction .add [1] S512 (mulf x x) 0x00000000#32 reduces_S512x64_S512 (.inl rfl) rfl

theorem rowSq_apply (x : FVec Ideal S512x64 .f32) (a : Fin 512) :
    rowSq x (ix1 a) = ∑ k : Fin 64, x (ix2 a k) * x (ix2 a k) := by
  unfold rowSq
  refine (Ideal.multiReduction_add_single (mulf x x) 0x00000000#32 reduces_S512x64_S512 (.inl rfl) rfl (ix1 a)).trans ?_
  refine Finset.sum_congr rfl fun k _ => ?_
  have e : reduces_S512x64_S512.lift (ix1 a) k = ix2 a k :=
    funext fun c => Fin.ext (by match c with | ⟨0, _⟩ => rfl | ⟨1, _⟩ => rfl)
  rw [e]
  rfl

/-- The column of row norms spread along the rows of the square: entry (a, b) is the norm of row a. -/
theorem colSpread_apply (v : FVec Ideal S512 .f32) (a b : Fin 512) :
    broadcastTo S512x512 (shapeCast S512x1 v shapeCasts_S512_S512x1) broadcasts_S512x1_S512x512 (ix2 a b) = v (ix1 a) := by
  rw [broadcastTo_a1_ab_apply, shapeCast_a_a1_apply]

/-- The column of row norms turned into a row and spread along the columns of the square: entry (a, b) is the norm
    of row b. -/
theorem rowSpread_apply (v : FVec Ideal S512 .f32) (a b : Fin 512) :
    broadcastTo S512x512 (transpose S1x512 [1, 0] (shapeCast S512x1 v shapeCasts_S512_S512x1) transposes_S512x1_p1_0_S1x512)
      broadcasts_S1x512_S512x512 (ix2 a b) = v (ix1 b) := by
  rw [broadcastTo_1b_ab_apply, transpose_ix2_apply, shapeCast_a_a1_apply]

/-! ## The inner products of the two tiles' rows -/

theorem lhs_gram_0 (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide),
    dif_pos (show (0 : Fin S512x64.rank) ∈ dot_S512x64_S64x512_S512x512_1_0_0_1_n_n.lhsNonContracting by decide)]
  rfl
theorem lhs_gram_1 (i : S512x512.Idx) (q : dot_S512x64_S64x512_S512x512_1_0_0_1_n_n.contr.Idx) :
    (dot_S512x64_S64x512_S512x512_1_0_0_1_n_n.lhsIdx i q 1).val = (q ⟨0, by decide⟩).val :=
  dot_S512x64_S64x512_S512x512_1_0_0_1_n_n.lhsIdx_val_of_single rfl i q
theorem rhs_gram_0 (i : S512x512.Idx) (q : dot_S512x64_S64x512_S512x512_1_0_0_1_n_n.contr.Idx) :
    (dot_S512x64_S64x512_S512x512_1_0_0_1_n_n.rhsIdx i q 0).val = (q ⟨0, by decide⟩).val :=
  dot_S512x64_S64x512_S512x512_1_0_0_1_n_n.rhsIdx_val_of_single rfl i q
theorem rhs_gram_1 (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide),
    dif_pos (show (1 : Fin S64x512.rank) ∈ dot_S512x64_S64x512_S512x512_1_0_0_1_n_n.rhsNonContracting by decide)]
  rfl

/-- The product of the first tile with the second one transposed, into a zero accumulator (the change of float
    format on the way in is the identity on extended reals). -/
def gram (x0 x1 : FVec Ideal S512x64 .f32) : FVec Ideal S512x512 .f32 :=
  matmul dot_S512x64_S64x512_S512x512_1_0_0_1_n_n none (truncf .bf16 x0 bitsLt_bf16_f32)
    (transpose S64x512 [1, 0] (truncf .bf16 x1 bitsLt_bf16_f32) transposes_S512x64_p1_0_S64x512)
    (constant S512x512 .f32 0x00000000#32)

/-- Entry (a, b) of it is the inner product of row a of the first tile and row b of the second. -/
theorem gram_apply (x0 x1 : FVec Ideal S512x64 .f32) (a b : Fin 512) :
    gram x0 x1 (ix2 a b) = ∑ k : Fin 64, x0 (ix2 a k) * x1 (ix2 b k) := by
  unfold gram
  simp only [matmul]
  rw [Ideal.matmul_constant_zero_apply,
    ← Equiv.sum_comp (contrEquiv1 dot_S512x64_S64x512_S512x512_1_0_0_1_n_n 64 rfl rfl).symm]
  refine Finset.sum_congr rfl fun k _ => ?_
  have hk := contrEquiv1_symm_val dot_S512x64_S64x512_S512x512_1_0_0_1_n_n 64 rfl rfl k
  have el : dot_S512x64_S64x512_S512x512_1_0_0_1_n_n.lhsIdx (ix2 a b)
      ((contrEquiv1 dot_S512x64_S64x512_S512x512_1_0_0_1_n_n 64 rfl rfl).symm k) = ix2 a k :=
    funext fun c => Fin.ext (by
      match c with
      | ⟨0, _⟩ => exact lhs_gram_0 _ _
      | ⟨1, _⟩ => exact (lhs_gram_1 _ _).trans hk)
  have er : dot_S512x64_S64x512_S512x512_1_0_0_1_n_n.rhsIdx (ix2 a b)
      ((contrEquiv1 dot_S512x64_S64x512_S512x512_1_0_0_1_n_n 64 rfl rfl).symm k) = ix2 k b :=
    funext fun c => Fin.ext (by
      match c with
      | ⟨0, _⟩ => exact (rhs_gram_0 _ _).trans hk
      | ⟨1, _⟩ => exact rhs_gram_1 _ _)
  rw [el, er, transpose_ix2_apply]
  rfl

/-! ## The pair terms of a tile -/

/-- The square of pair terms: exp(−√(max(norm a + norm b − 2·inner product, 0)) · 1/10) at (a, b), in the kernel's
    order of operations and with its constants. -/
def pairTile (x0 x1 : FVec Ideal S512x64 .f32) : FVec Ideal S512x512 .f32 :=
  exp (mulf
    (subf (broadcast S512x512 (Scalar.ofBits (F := Ideal) .f32 0x00000000#32))
      (sqrt (maximumf
        (subf
          (addf
            (broadcastTo S512x512 (shapeCast S512x1 (rowSq x0) shapeCasts_S512_S512x1) broadcasts_S512x1_S512x512)
            (broadcastTo S512x512
              (transpose S1x512 [1, 0] (shapeCast S512x1 (rowSq x1) shapeCasts_S512_S512x1) transposes_S512x1_p1_0_S1x512)
              broadcasts_S1x512_S512x512))
          (mulf (broadcast S512x512 (Scalar.ofBits (F := Ideal) .f32 0x40000000#32)) (gram x0 x1)))
        (broadcast S512x512 (Scalar.ofBits (F := Ideal) .f32 0x00000000#32)))))
    (broadcast S512x512 (Scalar.ofBits (F := Ideal) .f32 0x3DCCCCCD#32)))

theorem pairTile_apply (x0 x1 : FVec Ideal S512x64 .f32) (a b : Fin 512) :
    pairTile x0 x1 (ix2 a b)
      = Ideal.exp ((0 - Ideal.sqrt (max ((rowSq x0 (ix1 a) + rowSq x1 (ix1 b)) - two * gram x0 x1 (ix2 a b)) 0)) * tenth) := by
  unfold pairTile
  rw [exp_apply, mulf_apply, subf_apply, sqrt_apply, maximumf_apply, subf_apply, addf_apply, mulf_apply,
    colSpread_apply, rowSpread_apply]
  simp only [broadcast_apply]
  show Ideal.exp ((Ideal.ofBits .f32 0x00000000#32 - Ideal.sqrt (max ((rowSq x0 (ix1 a) + rowSq x1 (ix1 b))
    - Ideal.ofBits .f32 0x40000000#32 * gram x0 x1 (ix2 a b)) (Ideal.ofBits .f32 0x00000000#32)))
    * Ideal.ofBits .f32 0x3DCCCCCD#32) = _
  rw [Ideal.ofBits_zero_f32]
  rfl

/-! ## The mask: which entries of the tile are pairs with the first row before the second -/

/-- The comparison of the two array rows' numbers, as the kernel computes them on 32-bit words. -/
def maskTile (arg0 arg1 : BitVec 32) : IVec S512x512 1 :=
  cmpi .slt
    (addi (broadcast S512x512 (Scalar.muli arg0 512#32)) (iota .tc S512x512 32 [0] iota_S512x512_d0_w32))
    (addi (broadcast S512x512 (Scalar.muli arg1 512#32)) (iota .tc S512x512 32 [1] iota_S512x512_d1_w32))

/-- A tile row's array row as a word: no wrap, the numbers stay below 8192. -/
theorem rowWord_toNat (i a : ℕ) (hi : i < 16) (ha : a < 512) :
    (IntOp.addi (Scalar.muli (BitVec.ofNat 32 i) 512#32) (BitVec.ofNat 32 a)).toNat = 512 * i + a := by
  show (BitVec.ofNat 32 i * 512#32 + BitVec.ofNat 32 a).toNat = _
  rw [BitVec.toNat_add, BitVec.toNat_mul, BitVec.toNat_ofNat, BitVec.toNat_ofNat, BitVec.toNat_ofNat]
  omega

theorem maskTile_apply (i j : Fin 16) (a b : Fin 512) :
    maskTile (BitVec.ofNat 32 i.val) (BitVec.ofNat 32 j.val) (ix2 a b)
      = if 512 * i.val + a.val < 512 * j.val + b.val then 1#1 else 0#1 := by
  unfold maskTile
  show IntOp.cmpi .slt
      (IntOp.addi (Scalar.muli (BitVec.ofNat 32 i.val) 512#32) (iota .tc S512x512 32 [0] iota_S512x512_d0_w32 (ix2 a b)))
      (IntOp.addi (Scalar.muli (BitVec.ofNat 32 j.val) 512#32) (iota .tc S512x512 32 [1] iota_S512x512_d1_w32 (ix2 a b))) = _
  rw [iota_single_apply, iota_single_apply]
  show IntOp.cmpi .slt
      (IntOp.addi (Scalar.muli (BitVec.ofNat 32 i.val) 512#32) (BitVec.ofNat 32 a.val))
      (IntOp.addi (Scalar.muli (BitVec.ofNat 32 j.val) 512#32) (BitVec.ofNat 32 b.val)) = _
  have hA := rowWord_toNat i.val a.val i.isLt a.isLt
  have hB := rowWord_toNat j.val b.val j.isLt b.isLt
  have hi := i.isLt
  have hj := j.isLt
  have ha := a.isLt
  have hb := b.isLt
  have hiff := StableHlo.Predicate.slt_iff_toNat
    (a := IntOp.addi (Scalar.muli (BitVec.ofNat 32 i.val) 512#32) (BitVec.ofNat 32 a.val))
    (b := IntOp.addi (Scalar.muli (BitVec.ofNat 32 j.val) 512#32) (BitVec.ofNat 32 b.val))
    (by rw [hA]; omega) (by rw [hB]; omega)
  rw [hA, hB] at hiff
  by_cases h : 512 * i.val + a.val < 512 * j.val + b.val
  · rw [if_pos h]; exact hiff.mpr h
  · rw [if_neg h]; exact eq_zero_of_ne_one fun h1 => h (hiff.mp h1)

/-! ## The masked tile and its sum -/

/-- The pair terms where the mask holds, zero elsewhere. -/
def maskedTile (arg0 arg1 : BitVec 32) (x0 x1 : FVec Ideal S512x64 .f32) : FVec Ideal S512x512 .f32 :=
  select (maskTile arg0 arg1) (pairTile x0 x1) (broadcast S512x512 (Scalar.ofBits (F := Ideal) .f32 0x00000000#32))

/-- The kernel's tile payload is the sum of the masked tile, taken through a leading unit axis. -/
theorem pay4_eq (arg0 arg1 : BitVec 32) (x0 x1 : FVec Ideal S512x64 .f32) :
    k0_pay4 (F := Ideal) arg0 arg1 x0 x1
      = extractAt ![0, 0, 0]
          (shapeCast S1x1x1
            (multiReduction .add [1, 2] S1
              (shapeCast S1x512x512 (maskedTile arg0 arg1 x0 x1) shapeCasts_S512x512_S1x512x512)
              0x00000000#32 reduces_S1x512x512_S1 (.inl rfl) rfl)
            shapeCasts_S1_S1x1x1)
          inpos_S1x1x1_p0_0_0 := rfl

/-- Summing a square through the leading unit axis, down to one number: the double sum over its rows and columns. -/
theorem squareSum (v : FVec Ideal S512x512 .f32) :
    extractAt ![0, 0, 0]
        (shapeCast S1x1x1
          (multiReduction .add [1, 2] S1 (shapeCast S1x512x512 v shapeCasts_S512x512_S1x512x512)
            0x00000000#32 reduces_S1x512x512_S1 (.inl rfl) rfl)
          shapeCasts_S1_S1x1x1)
        inpos_S1x1x1_p0_0_0
      = ∑ a : Fin 512, ∑ b : Fin 512, v (ix2 a b) := by
  unfold extractAt
  show multiReduction .add [1, 2] S1 (shapeCast S1x512x512 v shapeCasts_S512x512_S1x512x512)
      0x00000000#32 reduces_S1x512x512_S1 (.inl rfl) rfl (Shape.reshapeEquiv shapeCasts_S1_S1x1x1 _) = _
  refine (Ideal.multiReduction_add_total (shapeCast S1x512x512 v shapeCasts_S512x512_S1x512x512) 0x00000000#32
    reduces_S1x512x512_S1 (fun c => by match c with | ⟨0, _⟩ => rfl) (.inl rfl) rfl _).trans ?_
  show ∑ i : S1x512x512.Idx, v (Shape.reshapeEquiv shapeCasts_S512x512_S1x512x512 i) = _
  rw [Equiv.sum_comp (Shape.reshapeEquiv shapeCasts_S512x512_S1x512x512) v]
  exact sum_idx2 v

/-! ## The tile payload is the specification's tile sum -/

/-- Grid point (i, j): when the first tile holds the array's rows 512·i … and the second its rows 512·j …, the
    kernel's tile payload is the masked sum of pair terms over that tile. -/
theorem pay4_tileSum (X : Cert.Diversity.SX.Idx → EReal) (i j : Fin 16) (x0 x1 : FVec Ideal S512x64 .f32)
    (h0 : ∀ (a : Fin 512) (k : Fin 64), x0 (ix2 a k) = X (ix2 (rowOf i a) k))
    (h1 : ∀ (b : Fin 512) (k : Fin 64), x1 (ix2 b k) = X (ix2 (rowOf j b) k)) :
    k0_pay4 (F := Ideal) (BitVec.ofNat 32 i.val) (BitVec.ofNat 32 j.val) x0 x1 = tileSum X i j := by
  rw [pay4_eq, squareSum]
  unfold tileSum
  refine Finset.sum_congr rfl fun a _ => Finset.sum_congr rfl fun b _ => ?_
  have hn0 : rowSq x0 (ix1 a) = sqn X (rowOf i a) := by
    rw [rowSq_apply]; unfold sqn
    exact Finset.sum_congr rfl fun k _ => by rw [h0 a k]
  have hn1 : rowSq x1 (ix1 b) = sqn X (rowOf j b) := by
    rw [rowSq_apply]; unfold sqn
    exact Finset.sum_congr rfl fun k _ => by rw [h1 b k]
  have hg : gram x0 x1 (ix2 a b) = dotp X (rowOf i a) (rowOf j b) := by
    rw [gram_apply]; unfold dotp
    exact Finset.sum_congr rfl fun k _ => by rw [h0 a k, h1 b k]
  have hp : pairTile x0 x1 (ix2 a b) = pairTerm X (rowOf i a) (rowOf j b) := by
    rw [pairTile_apply, hn0, hn1, hg]; rfl
  unfold maskedTile
  rw [select_apply, maskTile_apply, hp, broadcast_apply]
  unfold masked
  show Scalar.select (if 512 * i.val + a.val < 512 * j.val + b.val then 1#1 else 0#1)
      (pairTerm X (rowOf i a) (rowOf j b)) (Ideal.ofBits .f32 0x00000000#32)
    = if 512 * i.val + a.val < 512 * j.val + b.val then pairTerm X (rowOf i a) (rowOf j b) else 0
  by_cases h : 512 * i.val + a.val < 512 * j.val + b.val
  · rw [if_pos h, if_pos h, select_one]
  · rw [if_neg h, if_neg h, select_zero, Ideal.ofBits_zero_f32]

/-! ## The three small payloads: the reset, the update and the final division -/

theorem pay1_eq : (k0_pay1 (F := Ideal)) = fun _ => (0 : EReal) := by
  show shapeCast S1x1 (broadcast S1x1 (Scalar.ofBits (F := Ideal) .f32 0x00000000#32)) shapeCasts_S1x1_S1x1 = _
  rw [shapeCast_self]
  funext _
  exact Ideal.ofBits_zero_f32

theorem pay2_eq (v51 : FVec Ideal S1x1 .f32) (v55 : EReal) :
    k0_pay2 (F := Ideal) v51 v55 = fun u => v51 u + v55 := by
  show shapeCast S1x1 (addf v51 (broadcast S1x1 v55)) shapeCasts_S1x1_S1x1 = _
  rw [shapeCast_self]
  rfl

theorem pay3_eq (v13 : FVec Ideal S1x1 .f32) :
    k0_pay3 (F := Ideal) v13 = fun u => Ideal.div (v13 u) npairs := rfl

/-! ## The accumulator and the output -/

/-- The scratch cell after grid point n is the specification's accumulator, when the two windows hold the tile rows
    the grid point names. -/
theorem accAt_ideal (X : Cert.Diversity.SX.Idx → EReal) (B0 B1 : ℕ → Vec Ideal S512x64 .f32)
    (h0 : ∀ n (a : Fin 512) (k : Fin 64), B0 n (ix2 a k) = X (ix2 (rowOf (gi n) a) k))
    (h1 : ∀ n (a : Fin 512) (k : Fin 64), B1 n (ix2 a k) = X (ix2 (rowOf (gj n) a) k)) :
    ∀ n, accAt (F := Ideal) B0 B1 n = fun _ => accSpec X n := by
  intro n
  induction n with
  | zero =>
    have e : k0_pay4 (F := Ideal) (BitVec.ofNat 32 0) (BitVec.ofNat 32 0) (B0 0) (B1 0) = tileSum X (gi 0) (gj 0) :=
      pay4_tileSum X (gi 0) (gj 0) (B0 0) (B1 0) (h0 0) (h1 0)
    show k0_pay2 (F := Ideal) (k0_pay1 (F := Ideal))
      (k0_pay4 (F := Ideal) (BitVec.ofNat 32 0) (BitVec.ofNat 32 0) (B0 0) (B1 0)) = _
    rw [e, pay2_eq, pay1_eq]
    rfl
  | succ n ih =>
    have e : k0_pay4 (F := Ideal) (BitVec.ofNat 32 ((n + 1) / 16 % 16)) (BitVec.ofNat 32 ((n + 1) % 16))
        (B0 (n + 1)) (B1 (n + 1)) = tileSum X (gi (n + 1)) (gj (n + 1)) :=
      pay4_tileSum X (gi (n + 1)) (gj (n + 1)) (B0 (n + 1)) (B1 (n + 1)) (h0 (n + 1)) (h1 (n + 1))
    show (if (n + 1) / 16 % 16 ≤ (n + 1) % 16 then
        k0_pay2 (F := Ideal) (accAt (F := Ideal) B0 B1 n)
          (k0_pay4 (F := Ideal) (BitVec.ofNat 32 ((n + 1) / 16 % 16)) (BitVec.ofNat 32 ((n + 1) % 16)) (B0 (n + 1)) (B1 (n + 1)))
      else accAt (F := Ideal) B0 B1 n)
      = fun _ => (if (n + 1) / 16 % 16 ≤ (n + 1) % 16 then accSpec X n + tileSum X (gi (n + 1)) (gj (n + 1)) else accSpec X n)
    rw [e, ih, pay2_eq]
    by_cases h : (n + 1) / 16 % 16 ≤ (n + 1) % 16
    · rw [if_pos h, if_pos h]
    · rw [if_neg h, if_neg h]

/-- The output block the last grid point writes back is the claim's value. -/
theorem outFinal_ideal (X : Cert.Diversity.SX.Idx → EReal) (B0 B1 : ℕ → Vec Ideal S512x64 .f32)
    (h0 : ∀ n (a : Fin 512) (k : Fin 64), B0 n (ix2 a k) = X (ix2 (rowOf (gi n) a) k))
    (h1 : ∀ n (a : Fin 512) (k : Fin 64), B1 n (ix2 a k) = X (ix2 (rowOf (gj n) a) k)) :
    outFinal (F := Ideal) B0 B1 = fun _ => Cert.Diversity.result X := by
  unfold outFinal
  rw [accAt_ideal X B0 B1 h0 h1 255, pay3_eq, accSpec_last]
  rfl

end Cert.KernelIdeal.Hand

end
-- ==== Proof.KIValue.lean ====
/-
  The kernel's result at the ideal instance, as the specification's value.

  At point n the first input window holds the 512 rows of tile row n / 16 of the argument array and the second the
  512 rows of tile column n % 16 (the block at block index b starts at row 512·b); so the accumulator's recursion
  over the windows' tiles is the specification's, and the final quotient is the specification's result.
-/
import proofs.«150324_j206158430576_1_alg».proof.Proof.KI.Final
import proofs.«150324_j206158430576_1_alg».proof.Proof.TileValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Cert.Diversity Idealize.ShloMosaic.ValueIdx

/-- The block indices of the two input windows at point `t`: the tile row and the tile column, both on the row axis. -/
theorem idx_facts : ∀ t : Fin cfg0.N, win0_0.index t (0 : Fin 2) = t.val / 16 % 16 ∧ win0_0.index t (1 : Fin 2) = 0
    ∧ win0_1.index t (0 : Fin 2) = t.val % 16 ∧ win0_1.index t (1 : Fin 2) = 0 :=
  (by decide +kernel : ∀ t : Fin grid0.N, win0_0.index t (0 : Fin 2) = t.val / 16 % 16 ∧ win0_0.index t (1 : Fin 2) = 0
    ∧ win0_1.index t (0 : Fin 2) = t.val % 16 ∧ win0_1.index t (1 : Fin 2) = 0)

/-- The argument array on core `c`. -/
abbrev argX (c : Dev nD) : SX.Idx → EReal := m ((c : Thread nD τ).loc main_arg0)

/-- The first window's tile at step `n` is tile row n / 16 of the argument array. -/
theorem tile0_at (c : Dev nD) (n : ℕ) (a : Fin 512) (k : Fin 64) :
    tile0 (F := Ideal) m c n (ix2 a k) = argX m c (ix2 (rowOf (gi n) a) k) := by
  unfold tile0 iblk
  generalize ht : (⟨n % 256, lt_of_lt_of_eq (Nat.mod_lt _ (by decide)) N_0.symm⟩ : Fin cfg0.N) = t
  have htv : t.val = n % 256 := by rw [← ht]
  show V m c main_arg0 (((cfg0.win 0).blk t).view.emb (ix2 a k)) = _
  refine congrArg (V m c main_arg0) ?_
  obtain ⟨e0, e1, -, -⟩ := idx_facts t
  funext d; apply Fin.ext
  match d with
  | ⟨0, _⟩ =>
    show win0_0.index t (0 : Fin 2) * 512 + 1 * a.val = 512 * (n / 16 % 16) + a.val
    rw [e0, htv]; omega
  | ⟨1, _⟩ =>
    show win0_0.index t (1 : Fin 2) * 64 + 1 * k.val = k.val
    rw [e1]; omega

/-- The second window's tile at step `n` is tile column n % 16 of the argument array. -/
theorem tile1_at (c : Dev nD) (n : ℕ) (a : Fin 512) (k : Fin 64) :
    tile1 (F := Ideal) m c n (ix2 a k) = argX m c (ix2 (rowOf (gj n) a) k) := by
  unfold tile1 iblk
  generalize ht : (⟨n % 256, lt_of_lt_of_eq (Nat.mod_lt _ (by decide)) N_0.symm⟩ : Fin cfg0.N) = t
  have htv : t.val = n % 256 := by rw [← ht]
  show V m c main_arg0 (((cfg0.win 1).blk t).view.emb (ix2 a k)) = _
  refine congrArg (V m c main_arg0) ?_
  obtain ⟨-, -, e0, e1⟩ := idx_facts t
  funext d; apply Fin.ext
  match d with
  | ⟨0, _⟩ =>
    show win0_1.index t (0 : Fin 2) * 512 + 1 * a.val = 512 * (n % 16) + a.val
    rw [e0, htv]; omega
  | ⟨1, _⟩ =>
    show win0_1.index t (1 : Fin 2) * 64 + 1 * k.val = k.val
    rw [e1]; omega

/-- The final quotient is the specification's result of the argument array. -/
theorem outFinal_value (c : Dev nD) :
    outFinal (F := Ideal) (tile0 m c) (tile1 m c) = fun _ => Cert.Diversity.result (argX m c) :=
  outFinal_ideal (argX m c) (tile0 m c) (tile1 m c) (tile0_at m c) (tile1_at m c)

end Cert.KernelIdeal.Hand

end
-- ==== Proof.Reference.lean ====
import proofs.«150324_j206158430576_1_alg».proof.Proof.Gen.ReferenceIdeal.Run
import proofs.«150324_j206158430576_1_alg».proof.Proof.Gen.ReferenceIdeal.Read
import proofs.«150324_j206158430576_1_alg».proof.Proof.Spec
import Idealize.ShloMosaic.Lib.StableHlo.Predicate

/-
  The reference program, read at the extended reals, computes the specification's value.

  Stage by stage, at one index: the row reduction of the squared entries is the squared norm of a row; the
  contraction of the array with its own transpose is the inner product of two rows; the two broadcasts of the
  squared norms add to ‖X_r‖² + ‖X_c‖²; subtracting twice the inner product gives the squared distance before
  clamping.  The triangular mask compares the row coordinate with the column coordinate as signed 32-bit
  words; both are below 8192, so the comparison is the comparison of the coordinates, and the mask is set
  exactly where r < c.  Under the mask the clamped squared distance goes through the square root, the negation
  (which is the difference from zero), the product with one tenth and the exponential; off the mask the value is
  zero.  The sum over the whole square of indices is the double sum over rows and columns, and the division by the
  pair count is the last step.
-/

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Index maps of the layout operations, on coordinates -/

/-- The row reduction reads row r at column k. -/
theorem idx_v1 (r : Fin 8192) (k : Fin 64) : idx_main_v1 (ix1 r) k = ix2 r k :=
  funext fun a => Fin.ext (by match a with | ⟨0, _⟩ => rfl | ⟨1, _⟩ => rfl)

/-- The contraction's left operand is read at row r, column k. -/
theorem lidx_v3 (r c : Fin 8192) (k : Fin 64) : lidx_main_v3 (ix2 r c) k = ix2 r k :=
  funext fun a => Fin.ext (by match a with | ⟨0, _⟩ => rfl | ⟨1, _⟩ => rfl)

/-- The contraction's right operand, the transpose, is read at (k, c), that is the array at row c, column k. -/
theorem ridx_v3 (r c : Fin 8192) (k : Fin 64) : idx_main_v2 (ridx_main_v3 (ix2 r c) k) = ix2 c k :=
  funext fun a => Fin.ext (by match a with | ⟨0, _⟩ => rfl | ⟨1, _⟩ => rfl)

/-- The column broadcast of the squared norms reads entry r. -/
theorem idx_v6 (r c : Fin 8192) : idx_main_v4 (idx_main_v6 (ix2 r c)) = ix1 r :=
  funext fun a => Fin.ext (by match a with | ⟨0, _⟩ => rfl)

/-- The row broadcast of the squared norms reads entry c. -/
theorem idx_v7 (r c : Fin 8192) : idx_main_v5 (idx_main_v7 (ix2 r c)) = ix1 c :=
  funext fun a => Fin.ext (by match a with | ⟨0, _⟩ => rfl)

/-! ## The stages at an index -/

section
variable (X : FVec Ideal S8192x64 .f32)

/-- The row reduction of the squares is the squared norm of the row. -/
theorem v1_at (r : Fin 8192) : val_main_v1 (F := Ideal) X (ix1 r) = Cert.Diversity.sqn X r := by
  rw [val_main_v1_apply, val_main_cst_apply, Ideal.ofBits_def, Ideal.ofBits_zero_f32, zero_add]
  unfold Cert.Diversity.sqn
  refine Finset.sum_congr rfl fun k _ => ?_
  rw [val_main_v0_apply, Ideal.mulf_def, idx_v1]

/-- The contraction with the transpose is the inner product of two rows. -/
theorem v3_at (r c : Fin 8192) : val_main_v3 (F := Ideal) X (ix2 r c) = Cert.Diversity.dotp X r c := by
  rw [val_main_v3_apply]
  unfold Cert.Diversity.dotp
  refine Finset.sum_congr rfl fun k _ => ?_
  rw [val_main_v2_apply, lidx_v3, ridx_v3]

/-- The two broadcasts add to the sum of the two squared norms. -/
theorem v8_at (r c : Fin 8192) :
    val_main_v8 (F := Ideal) X (ix2 r c) = Cert.Diversity.sqn X r + Cert.Diversity.sqn X c := by
  rw [val_main_v8_apply, Ideal.addf_def, val_main_v6_apply, val_main_v4_apply, idx_v6, v1_at,
    val_main_v7_apply, val_main_v5_apply, idx_v7, v1_at]

/-- The squared distance before clamping. -/
theorem v11_at (r c : Fin 8192) :
    val_main_v11 (F := Ideal) X (ix2 r c)
      = (Cert.Diversity.sqn X r + Cert.Diversity.sqn X c) - Cert.Diversity.two * Cert.Diversity.dotp X r c := by
  rw [val_main_v11_apply, Ideal.subf_def, v8_at, val_main_v10_apply, Ideal.mulf_def, val_main_v9_apply,
    val_main_cst_0_apply, Ideal.ofBits_def, v3_at]
  rfl

end

/-! ## The triangular mask -/

/-- Two words of coordinates below 8192: "r + 0 ≥ c, else true" is set exactly where r < c. -/
theorem mask_word (r c : Nat) (hr : r < 8192) (hc : c < 8192) :
    Scalar.select (IntOp.cmpi .sge (IntOp.addi (BitVec.ofNat 32 r) 0#32) (BitVec.ofNat 32 c)) (0#1) (1#1)
      = if r < c then 1#1 else 0#1 := by
  have h0 : IntOp.addi (BitVec.ofNat 32 r) 0#32 = BitVec.ofNat 32 r := by
    unfold IntOp.addi; exact BitVec.add_zero _
  have hrn : (BitVec.ofNat 32 r).toNat = r := by rw [BitVec.toNat_ofNat]; omega
  have hcn : (BitVec.ofNat 32 c).toNat = c := by rw [BitVec.toNat_ofNat]; omega
  have hiff := Predicate.sge_iff_toNat (a := BitVec.ofNat 32 r) (b := BitVec.ofNat 32 c)
    (by rw [hrn]; omega) (by rw [hcn]; omega)
  rw [hrn, hcn] at hiff
  rw [h0]
  by_cases h : r < c
  · have hne : ¬ IntOp.cmpi .sge (BitVec.ofNat 32 r) (BitVec.ofNat 32 c) = 1#1 := fun e => by
      have := hiff.mp e; omega
    rw [if_pos h, eq_zero_of_ne_one hne, select_zero]
  · have he : IntOp.cmpi .sge (BitVec.ofNat 32 r) (BitVec.ofNat 32 c) = 1#1 := hiff.mpr (by omega)
    rw [if_neg h, he, select_one]

/-- The mask at (r, c) is set exactly where r < c. -/
theorem v13_at (r c : Fin 8192) :
    val_main_v13 (F := Ideal) (ix2 r c) = if r.val < c.val then 1#1 else 0#1 := by
  rw [val_main_v13_apply, val_main_call0_v4_apply, val_main_call0_v2_apply, val_main_call0_v0_apply,
    val_main_call0_v1_apply, val_main_call0_c_apply, val_main_call0_v3_apply, val_main_call0_v5_apply,
    val_main_call0_c_0_apply, val_main_v12_apply, val_main_c_apply]
  exact mask_word r.val c.val r.isLt c.isLt

/-! ## From the mask to the result -/

section
variable (X : FVec Ideal S8192x64 .f32)

/-- Under the mask the clamped squared distance, elsewhere the float one. -/
theorem v16_at (r c : Fin 8192) :
    val_main_v16 (F := Ideal) X (ix2 r c)
      = if r.val < c.val then Cert.Diversity.sqdist X r c else Ideal.ofBits .f32 0x3F800000#32 := by
  rw [val_main_v16_apply, v13_at, val_main_v15_apply, Ideal.maximumf_def, v11_at, val_main_v14_apply,
    val_main_cst_1_apply, Ideal.ofBits_def, Ideal.ofBits_zero_f32, val_main_call1_v1_apply,
    val_main_call1_v0_apply, val_main_cst_2_apply, Ideal.ofBits_def]
  by_cases h : r.val < c.val
  · rw [if_pos h, if_pos h, select_one]; rfl
  · rw [if_neg h, if_neg h, select_zero]

/-- The exponential of minus the square root times one tenth; the negation is the difference from zero. -/
theorem v21_at (r c : Fin 8192) :
    val_main_v21 (F := Ideal) X (ix2 r c)
      = Ideal.exp ((0 - Ideal.sqrt (val_main_v16 (F := Ideal) X (ix2 r c))) * Cert.Diversity.tenth) := by
  rw [val_main_v21_apply, Ideal.hostUnary_exp_def, val_main_v20_apply, Ideal.mulf_def, val_main_v18_apply,
    Ideal.hostNegf_def, Ideal.negf_def, val_main_v17_apply, Ideal.hostUnary_sqrt_def, val_main_v19_apply,
    val_main_cst_3_apply, Ideal.ofBits_def, zero_sub]
  rfl

/-- The masked pair term. -/
theorem v22_at (r c : Fin 8192) : val_main_v22 (F := Ideal) X (ix2 r c) = Cert.Diversity.masked X r c := by
  rw [val_main_v22_apply, v13_at, val_main_call2_v1_apply, val_main_call2_v0_apply, val_main_cst_4_apply,
    Ideal.ofBits_def, Ideal.ofBits_zero_f32]
  unfold Cert.Diversity.masked
  by_cases h : r.val < c.val
  · rw [if_pos h, if_pos h, select_one, v21_at, v16_at, if_pos h]; rfl
  · rw [if_neg h, if_neg h, select_zero]

/-- The sum over the whole square is the double sum of the masked pair terms. -/
theorem v23_at (i : S_.Idx) : val_main_v23 (F := Ideal) X i = Cert.Diversity.total X := by
  rw [val_main_v23_apply, val_main_cst_5_apply, Ideal.ofBits_def, Ideal.ofBits_zero_f32, zero_add, sum_idx2]
  unfold Cert.Diversity.total
  exact Finset.sum_congr rfl fun r _ => Finset.sum_congr rfl fun c _ => v22_at X r c

/-- The reference's result: the constant array at the specification's value. -/
theorem result_eq : val_main_v24 (F := Ideal) X = fun _ => Cert.Diversity.result X := by
  funext i
  rw [val_main_v24_apply, Ideal.hostDivf_def, v23_at, val_main_cst_6_apply, Ideal.ofBits_def]
  rfl

end

/-- Every weakly fair execution of the reference ends with its result buffer at the specification's value of the
    argument array, and the argument unchanged. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v24)
          = (fun _ => Cert.Diversity.result (m ((c.tc : Thread nD τ).loc main_arg0)))
        ∧ r.2.mem ((c.tc : Thread nD τ).loc main_arg0) = m ((c.tc : Thread nD τ).loc main_arg0) := by
  refine (θ_run defs _ _).mono (fun _ h c => ⟨(h c).1.trans ?_, (h c).2⟩)
    (Cert.ReferenceIdeal.Value.run (F := Ideal) m ρ)
  rw [val_main_v24_eq]
  exact result_eq _

end Cert.ReferenceIdeal.RefValue

end
-- ==== Proof.lean ====
/-
  The certificate: the kernel's pairwise-distance loss equals the reference's, over the extended reals.

  Both programs compute, for an array X of 8192 rows of 64 numbers, the sum over pairs of rows r < c of
  exp(−√(max(‖X_r‖² + ‖X_c‖² − 2·⟨X_r, X_c⟩, 0)) · (1/10 as a float)) divided by the pair count 33550336, with the
  same constants and the same order of operations inside each pair term.  The reference forms the 8192 × 8192 matrix
  of masked terms (zero where r ≥ c) and sums it.  The kernel walks a 16 × 16 grid of 512 × 512 tiles, keeps one
  running sum in a scratch cell, adds each tile's masked sum at the tiles on or above the diagonal, skips the tiles
  below it (which hold only pairs with r ≥ c, all masked to zero), and divides at the last tile.  Addition of extended
  reals is commutative and associative, so the two sums agree with no finiteness assumption; the precondition is not
  used.  The ideal pass rewrote nothing, so the kernel's idealization is its own text and `preserves` is trivial.

  The frames: the kernel's two input windows read ONE array, which they hold by halves; the region's invariant carries
  the scratch cell's contents from point to point; @main ends with a reshape of the 1 × 1 result to a scalar.  The
  reference is a host program, and its frame is its run with the result forgotten.
-/
import proofs.«150324_j206158430576_1_alg».proof.Defs
import proofs.«150324_j206158430576_1_alg».proof.Proof.Gen.Kernel
import proofs.«150324_j206158430576_1_alg».proof.Proof.Gen.KernelIdeal
import proofs.«150324_j206158430576_1_alg».proof.Proof.Gen.ReferenceIdeal
import proofs.«150324_j206158430576_1_alg».proof.Proof.Gen.Pre_finite_inputs
import proofs.«150324_j206158430576_1_alg».proof.Proof.K.Run
import proofs.«150324_j206158430576_1_alg».proof.Proof.KI.Run
import proofs.«150324_j206158430576_1_alg».proof.Proof.KIValue
import proofs.«150324_j206158430576_1_alg».proof.Proof.Reference

noncomputable section

namespace Cert.Proof

open Idealize.ShloMosaic Idealize.ShloMosaic.TcCoe Idealize.SL.Sem

/-- The word-level kernel program runs to its end and leaves its argument unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RefValue.run_result m ρ)

/-- From memories agreeing on the argument both idealized programs end with the scalar result at the specification's
    value of the argument array: the kernel's final quotient of its accumulated tile sums, the reference's quotient of
    its sum over the whole square. -/
theorem algebraic : Cert.algebraic_KernelIdeal_ReferenceIdeal := by
  intro m ρ m' ρ' _ hagree
  refine ⟨fun c => fun _ => Cert.Diversity.result (Cert.KernelIdeal.Hand.argX m c), ?_, ?_⟩
  · refine (θ_run Cert.KernelIdeal.defs _ _).mono (fun r h c => ⟨(h c).1.trans ?_, (h c).2⟩)
      (Cert.KernelIdeal.Hand.run_main (F := Ideal) m ρ)
    rw [Cert.KernelIdeal.Hand.outFinal_value m c]
    rfl
  · refine (θ_run Cert.ReferenceIdeal.defs _ _).mono (fun r h c => ⟨(h c).1.trans ?_, (h c).2⟩)
      (Cert.ReferenceIdeal.RefValue.run_result m' ρ')
    rw [hagree c]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
